-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S8192x1024 .f32) (main_arg1 : FVec F S1024x1024 .f32) (main_arg2 : FVec F S1024x1024 .f32) (main_arg3 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S8192x1024 : Shape := ⟨2, ![8192, 1024]⟩
abbrev S1024x1024 : Shape := ⟨2, ![1024, 1024]⟩

abbrev nBuf : Space → Nat
  | .hbm => 9
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S1024x1024, .bf16⟩
  | .hbm, ⟨8, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .f32⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1024, .f32⟩
  | .local _ .vmem, ⟨25, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_scratch0 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![8], ![false]⟩

def k3_cond2 (i : grid3.Coords) : BitVec 1 :=
  let arg0 : BitVec 32 := BitVec.ofNat 32 (i 0).val
  let c7_i32 : BitVec 32 := 7#32
  let v13 : BitVec 1 := Scalar.cmpi .eq arg0 c7_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1024x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  shapeCasts_S1024x1024_S1024x1024 : S1024x1024.ShapeCasts S1024x1024
  dot_S1024x1024_S1024x1024_S1024x1024_1_0_0_1_n_n_wf : DotDims.WF S1024x1024 S1024x1024 S1024x1024 [1] [0] [0] [1] [] []
  dot_S1024x1024_S1024x1024_S1024x1024_0_0_1_1_n_n_wf : DotDims.WF S1024x1024 S1024x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x1024.size a
  hwx0_2 : ∀ i : grid0.Coords, EltTy.bits .bf16 = 32 ∨ (Rect.block (s := S8192x1024) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x1024.size a
  hwx1_2 : ∀ i : grid1.Coords, EltTy.bits .bf16 = 32 ∨ (Rect.block (s := S8192x1024) S1024x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .f32 = 32 ∨ (Rect.block (s := S8192x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x1024.size a
  hwx2_2 : ∀ i : grid2.Coords, EltTy.bits .bf16 = 32 ∨ (Rect.block (s := S8192x1024) S1024x1024.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S8192x1024.size a
  hwx3_0 : ∀ i : grid3.Coords, EltTy.bits .bf16 = 32 ∨ (Rect.block (s := S8192x1024) S1024x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S8192x1024.size a
  hwx3_1 : ∀ i : grid3.Coords, EltTy.bits .bf16 = 32 ∨ (Rect.block (s := S8192x1024) S1024x1024.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S1024x1024.size a
  hwx3_2 : ∀ i : grid3.Coords, EltTy.bits .bf16 = 32 ∨ (Rect.block (s := S1024x1024) S1024x1024.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S8192x1024.size a
  hwx4_0 : ∀ i : grid4.Coords, EltTy.bits .bf16 = 32 ∨ (Rect.block (s := S8192x1024) S1024x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .bf16 = 32 ∨ (Rect.block (s := S1024x1024) S1024x1024.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x1024.size a ≤ S8192x1024.size a
  hwx4_2 : ∀ i : grid4.Coords, EltTy.bits .f32 = 32 ∨ (Rect.block (s := S8192x1024) S1024x1024.size (cc4_transform_2 i) (hinb4_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v1) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v3) S1024x1024.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v0) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v3) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v4) S1024x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S8192x1024 : Shape := ⟨2, ![8192, 1024]⟩
abbrev S1024x1024 : Shape := ⟨2, ![1024, 1024]⟩
abbrev S1024x8192 : Shape := ⟨2, ![1024, 8192]⟩
abbrev S8192x8192 : Shape := ⟨2, ![8192, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x8192, .f32⟩
  | .hbm, ⟨8, _⟩ => ⟨S8192x8192, .f32⟩
  | .hbm, ⟨9, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S8192x1024_S1024x8192_1_0 : S8192x1024.Transposes [1, 0] S1024x8192
  dot_S8192x1024_S1024x1024_S8192x1024_1_0_0_1_n_n_wf : DotDims.WF S8192x1024 S1024x1024 S8192x1024 [1] [0] [0] [1] [] []
  dot_S8192x1024_S1024x8192_S8192x8192_1_0_0_1_n_n_wf : DotDims.WF S8192x1024 S1024x8192 S8192x8192 [1] [0] [0] [1] [] []
  dot_S8192x8192_S8192x1024_S8192x1024_1_0_0_1_n_n_wf : DotDims.WF S8192x8192 S8192x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.KB.Reg0.lean ====
/-
  Region 0 of @main — one matrix product per grid point, a block of 1024 rows of the left operand against the whole
  right operand — as the pipeline's proof data: what each window's staging buffer holds after the body at a point
  (the inputs their blocks, the output the body's one store over them), the body's triple on whole staging memrefs,
  and the obligation at every point. Stated at a parameter `V`, the core's buffer contents when the region is entered.
-/
import proofs.«131888_j68736656605705_1_alg».proof.Proof.Gen.Kernel.Launch
import proofs.«131888_j68736656605705_1_alg».proof.Proof.Gen.Kernel.Skeleton
import proofs.«131888_j68736656605705_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds the point's block of rows, whether fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's staging buffer holds the whole right operand at every point: it is fetched once, at the first
    point, and its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body reads and writes through: the whole 1024 × 1024 block. -/
abbrev rw0 : Rect S1024x1024 := Rect.unit (s := S1024x1024) ![0, 0] S1024x1024.size inb_S1024x1024_S1024x1024_0_0

/-- The output's staging buffer after the body: the product of the two input blocks, stored whole. -/
def out0_2 (x0 : Vec F S1024x1024 .f32) (x1 : Vec F S1024x1024 .f32) : Vec F S1024x1024 .bf16 :=
  View.canon [⟨rw0, k0_pay1 (View.ld x0 rw0) (View.ld x1 rw0)⟩]

/-- The one store covers the buffer. -/
theorem cover0_2 (p0 : Vec F S1024x1024 .bf16) (y : S1024x1024.Idx) :
    ∃ pc ∈ ([⟨rw0, p0⟩] : List (View.Piece (Elt F) S1024x1024 .bf16)), y ∈ pc.1.set :=
  View.cover_of_tiled [⟨rw0, p0⟩] S1024x1024.size (by rfl) y

set_option maxHeartbeats 1000000 in
/-- The body on whole staging memrefs: the inputs' at contents `x0`, `x1` and the output's at anything; it ends with
    the inputs as they were and the output at `out0_2 x0 x1`. -/
theorem sound_kernel0 (c : Dev nD) (E : Set ℕ) (i : grid0.Coords) (arg1 : Memref sig .tc .vmem S1024x1024 .f32) (harg1 : arg1.IsWhole)
    (arg2 : Memref sig .tc .vmem S1024x1024 .f32) (harg2 : arg2.IsWhole) (arg3 : Memref sig .tc .vmem S1024x1024 .bf16) (harg3 : arg3.IsWhole)
    (x0 : Vec F S1024x1024 .f32) (x1 : Vec F S1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at a point the
    inputs' buffers at their blocks and the output's at their product; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Reg1.lean ====
/-
  Region 1 of @main — one matrix product per grid point, a block of 1024 rows of the left operand against the whole
  right operand — as the pipeline's proof data: what each window's staging buffer holds after the body at a point
  (the inputs their blocks, the output the body's one store over them), the body's triple on whole staging memrefs,
  and the obligation at every point. Stated at a parameter `V`, the core's buffer contents when the region is entered.
-/
import proofs.«131888_j68736656605705_1_alg».proof.Proof.Gen.Kernel.Launch
import proofs.«131888_j68736656605705_1_alg».proof.Proof.Gen.Kernel.Skeleton
import proofs.«131888_j68736656605705_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds the point's block of rows, whether fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right operand's staging buffer holds the whole right operand at every point: it is fetched once, at the first
    point, and its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body reads and writes through: the whole 1024 × 1024 block. -/
abbrev rw1 : Rect S1024x1024 := Rect.unit (s := S1024x1024) ![0, 0] S1024x1024.size inb_S1024x1024_S1024x1024_0_0

/-- The output's staging buffer after the body: the product of the two input blocks, stored whole. -/
def out1_2 (x0 : Vec F S1024x1024 .f32) (x1 : Vec F S1024x1024 .f32) : Vec F S1024x1024 .bf16 :=
  View.canon [⟨rw1, k1_pay1 (View.ld x0 rw1) (View.ld x1 rw1)⟩]

/-- The one store covers the buffer. -/
theorem cover1_2 (p0 : Vec F S1024x1024 .bf16) (y : S1024x1024.Idx) :
    ∃ pc ∈ ([⟨rw1, p0⟩] : List (View.Piece (Elt F) S1024x1024 .bf16)), y ∈ pc.1.set :=
  View.cover_of_tiled [⟨rw1, p0⟩] S1024x1024.size (by rfl) y

set_option maxHeartbeats 1000000 in
/-- The body on whole staging memrefs: the inputs' at contents `x0`, `x1` and the output's at anything; it ends with
    the inputs as they were and the output at `out1_2 x0 x1`. -/
theorem sound_kernel1 (c : Dev nD) (E : Set ℕ) (i : grid1.Coords) (arg1 : Memref sig .tc .vmem S1024x1024 .f32) (harg1 : arg1.IsWhole)
    (arg2 : Memref sig .tc .vmem S1024x1024 .f32) (harg2 : arg2.IsWhole) (arg3 : Memref sig .tc .vmem S1024x1024 .bf16) (harg3 : arg3.IsWhole)
    (x0 : Vec F S1024x1024 .f32) (x1 : Vec F S1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__proj_kernel i arg1 harg1 arg2 harg2 arg3 harg3) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core `c`: the arrays as the region finds them; after the body at a point the
    inputs' buffers at their blocks and the output's at their product; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Reg2.lean ====
/-
  Region 2 of @main — one matrix product per grid point, a block of 1024 rows of the left operand against the whole
  right operand — as the pipeline's proof data: what each window's staging buffer holds after the body at a point
  (the inputs their blocks, the output the body's one store over them), the body's triple on whole staging memrefs,
  and the obligation at every point. Stated at a parameter `V`, the core's buffer contents when the region is entered.
-/
import proofs.«131888_j68736656605705_1_alg».proof.Proof.Gen.Kernel.Launch
import proofs.«131888_j68736656605705_1_alg».proof.Proof.Gen.Kernel.Skeleton
import proofs.«131888_j68736656605705_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds the point's block of rows, whether fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right operand's staging buffer holds the whole right operand at every point: it is fetched once, at the first
    point, and its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The one rectangle the body reads and writes through: the whole 1024 × 1024 block. -/
abbrev rw2 : Rect S1024x1024 := Rect.unit (s := S1024x1024) ![0, 0] S1024x1024.size inb_S1024x1024_S1024x1024_0_0

/-- The output's staging buffer after the body: the product of the two input blocks, stored whole. -/
def out2_2 (x0 : Vec F S1024x1024 .f32) (x1 : Vec F S1024x1024 .f32) : Vec F S1024x1024 .bf16 :=
  View.canon [⟨rw2, k2_pay1 (View.ld x0 rw2) (View.ld x1 rw2)⟩]

/-- The one store covers the buffer. -/
theorem cover2_2 (p0 : Vec F S1024x1024 .bf16) (y : S1024x1024.Idx) :
    ∃ pc ∈ ([⟨rw2, p0⟩] : List (View.Piece (Elt F) S1024x1024 .bf16)), y ∈ pc.1.set :=
  View.cover_of_tiled [⟨rw2, p0⟩] S1024x1024.size (by rfl) y

set_option maxHeartbeats 1000000 in
/-- The body on whole staging memrefs: the inputs' at contents `x0`, `x1` and the output's at anything; it ends with
    the inputs as they were and the output at `out2_2 x0 x1`. -/
theorem sound_kernel2 (c : Dev nD) (E : Set ℕ) (i : grid2.Coords) (arg1 : Memref sig .tc .vmem S1024x1024 .f32) (harg1 : arg1.IsWhole)
    (arg2 : Memref sig .tc .vmem S1024x1024 .f32) (harg2 : arg2.IsWhole) (arg3 : Memref sig .tc .vmem S1024x1024 .bf16) (harg3 : arg3.IsWhole)
    (x0 : Vec F S1024x1024 .f32) (x1 : Vec F S1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__proj_kernel i arg1 harg1 arg2 harg2 arg3 harg3) K := by
  simp only [cc2__proj_kernel_eq_skeleton]; unfold cc2__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core `c`: the arrays as the region finds them; after the body at a point the
    inputs' buffers at their blocks and the output's at their product; the invariant the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.Reg3.lean ====
/-
  Region 3 of @main — kᵀ·v accumulated over the grid's 8 points, 1024 rows of k and v at a time, in a scratch buffer
  that the first point clears and every point adds its block's product to; the last point rounds the scratch into
  the output block. As the pipeline's proof data: what the scratch holds after each point, by recursion on the point
  (the invariant carries it from one point to the next), what each window's staging buffer holds after the body, the
  body's triple in each of its three control cases (first point, middle points, last point), and the obligation at
  every point. Stated at a parameter `V`, the core's buffer contents when the region is entered.
-/
import proofs.«131888_j68736656605705_1_alg».proof.Proof.Gen.Kernel.Launch
import proofs.«131888_j68736656605705_1_alg».proof.Proof.Gen.Kernel.Skeleton
import proofs.«131888_j68736656605705_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The staging buffer of k holds the point's block of rows. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The staging buffer of v holds the point's block of rows. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's two branches, decided over the grid -/

/-- The first branch (clear the scratch) is taken where the grid coordinate is 0, -/
abbrev condFirst3 (i : grid3.Coords) : Prop := (Scalar.cmpi .ne (Scalar.extui (Scalar.cmpi .eq (BitVec.ofNat 32 (i 0).val) 0#32)) 0#32) = 1#1
theorem hcondFirst3 : ∀ t : Fin cfg3.N, condFirst3 (grid3.coords t) ↔ t.val % 8 = 0 :=
  (by decide +kernel : ∀ t : Fin grid3.N, condFirst3 (grid3.coords t) ↔ t.val % 8 = 0)
/-- the second (round the scratch into the output) where it is 7. -/
abbrev condLast3 (i : grid3.Coords) : Prop := k3_cond2 i = 1#1
theorem hcondLast3 : ∀ t : Fin cfg3.N, condLast3 (grid3.coords t) ↔ t.val % 8 = 7 :=
  (by decide +kernel : ∀ t : Fin grid3.N, condLast3 (grid3.coords t) ↔ t.val % 8 = 7)

/-- The output window is idle (not stored, not written back) at every point but the last. -/
theorem idle3_2 : ∀ t : Fin cfg3.N, ¬condLast3 (grid3.coords t) → cfg3.idle 2 (grid3.coords t) = true := by decide +kernel
theorem noFlush3_2 : ∀ t : Fin cfg3.N, ¬condLast3 (grid3.coords t) → (cfg3.win 2).flush t = false := by decide +kernel
theorem live3_2 : ∀ t : Fin cfg3.N, condLast3 (grid3.coords t) → cfg3.idle 2 (grid3.coords t) = false := by decide +kernel

/-- The one rectangle every load and store of the body goes through: the whole 1024 × 1024 buffer. -/
abbrev rw3 : Rect S1024x1024 := Rect.unit (s := S1024x1024) ![0, 0] S1024x1024.size inb_S1024x1024_S1024x1024_0_0
theorem hz3 : (![0, 0] : Fin S1024x1024.rank → Nat) = fun _ => 0 := by
  funext a; match a with | ⟨0, _⟩ => rfl | ⟨1, _⟩ => rfl

theorem mem_rw3 (y : S1024x1024.Idx) : y ∈ rw3.set := View.mem_set_unit_zero hz3 inb_S1024x1024_S1024x1024_0_0 y

section Whole
variable {Val : EltTy → Type} [∀ e, Nonempty (Val e)] {e : EltTy} {sg : RefSig} {κ : Kind} {sp : Space}

/-- After stores the last of which writes the whole buffer, the buffer reads that store's payload. -/
theorem read_store_whole (v : View sg κ sp S1024x1024 e) (f : v.ty.Contents Val) (w : S1024x1024.Idx → Val e)
    (L : List (View.Piece Val S1024x1024 e)) :
    v.read Val (v.writes Val f ((⟨rw3, w⟩ : View.Piece Val S1024x1024 e) :: L)) = w := by
  rw [View.read_writes_eq_canon v f _ (fun y => ⟨(⟨rw3, w⟩ : View.Piece Val S1024x1024 e), List.mem_cons_self, mem_rw3 y⟩)]
  exact View.canon_cons_unit_zero hz3 inb_S1024x1024_S1024x1024_0_0 w L

/-- A load of the whole buffer reads its contents. -/
theorem readAt_whole (v : View sg κ sp S1024x1024 e) (f : v.ty.Contents Val) :
    v.readAt Val rw3.toLoadRect f = v.read Val f := by
  rw [View.readAt_eq_ld]; exact View.ld_unit_zero hz3 inb_S1024x1024_S1024x1024_0_0 _

/-- A load of the whole buffer after one store of the whole buffer reads that store's payload. -/
theorem readCov_whole (v : View sg κ sp S1024x1024 e) (w : S1024x1024.Idx → Val e) :
    v.readCov [(⟨rw3, w⟩ : View.Piece Val S1024x1024 e)] rw3.toLoadRect = w :=
  View.readCov_unit_zero v hz3 inb_S1024x1024_S1024x1024_0_0 w

end Whole

/-- The scratch accumulator, a whole buffer of the kernel's own. -/
abbrev scM3 : Memref sig .tc .vmem S1024x1024 .f32 := Memref.whole cc3_scratch0

/-! ## The body's triple, case by case -/

set_option maxHeartbeats 1000000 in
/-- FIRST POINT: the scratch, found at anything, is cleared and then holds the block product added to the cleared
    contents; the output's buffer is untouched. -/
theorem runFirst3 (c : Dev nD) (E : Set ℕ) (i : grid3.Coords) (arg1 : Memref sig .tc .vmem S1024x1024 .bf16) (harg1 : arg1.IsWhole)
    (arg2 : Memref sig .tc .vmem S1024x1024 .bf16) (harg2 : arg2.IsWhole) (arg3 : Memref sig .tc .vmem S1024x1024 .bf16) (harg3 : arg3.IsWhole)
    (arg4 : Memref sig .tc .vmem S1024x1024 .f32) (harg4 : arg4.IsWhole) (hc0 : condFirst3 i) (hc1 : ¬condLast3 i)
    (x0 x1 x3 : Vec F S1024x1024 .bf16) (K : PUnit → sProp 𝕄) :
    iprop(owns (c : Thread nD τ) arg1 fullShare x0 ∗ owns (c : Thread nD τ) arg2 fullShare x1 ∗ owns (c : Thread nD τ) arg3 fullShare x3 ∗ (∃ d, owns (c : Thread nD τ) arg4 fullShare d)
        ∗ (iprop(owns (c : Thread nD τ) arg1 fullShare x0 ∗ owns (c : Thread nD τ) arg2 fullShare x1 ∗ owns (c : Thread nD τ) arg3 fullShare x3
            ∗ owns (c : Thread nD τ) arg4 fullShare (k3_pay2 x0 x1 k3_pay1)) -∗ K ⟨⟩))
      ⊢ wp frame (wpE (defs₀ (F := F)) Variants.none c none) E (cc3__ktv_kernel i arg1 harg1 arg2 harg2 arg3 harg3 arg4 harg4) K := by
  simp only [cc3__ktv_kernel_eq_skeleton]; unfold cc3__ktv_kernel_skel
  unfold owns
  iintro ⟨⟨%f0, %hf0, H0⟩, ⟨%f1, %hf1, H1⟩, ⟨%f3, %hf3, H3⟩, ⟨%d4, %f4, -, H4⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H3]
  · iexists f3; isplitr; · ipureintro; rfl
    iexact H3
  iexists _; isplitr
  swap; · iexact H4
  ipureintro
  sl_unfold_words
  refine (read_store_whole (Val := Elt F) arg4.view f4 _ _).trans ?_
  rw [readAt_whole, readAt_whole, readCov_whole]

set_option maxHeartbeats 1000000 in
/-- MIDDLE POINTS: the scratch, found at `xs`, ends at `xs` plus the block product; the output's buffer is untouched. -/
theorem runMid3 (c : Dev nD) (E : Set ℕ) (i : grid3.Coords) (arg1 : Memref sig .tc .vmem S1024x1024 .bf16) (harg1 : arg1.IsWhole)
    (arg2 : Memref sig .tc .vmem S1024x1024 .bf16) (harg2 : arg2.IsWhole) (arg3 : Memref sig .tc .vmem S1024x1024 .bf16) (harg3 : arg3.IsWhole)
    (arg4 : Memref sig .tc .vmem S1024x1024 .f32) (harg4 : arg4.IsWhole) (hc0 : ¬condFirst3 i) (hc1 : ¬condLast3 i)
    (x0 x1 x3 : Vec F S1024x1024 .bf16) (xs : Vec F S1024x1024 .f32) (K : PUnit → sProp 𝕄) :
    iprop(owns (c : Thread nD τ) arg1 fullShare x0 ∗ owns (c : Thread nD τ) arg2 fullShare x1 ∗ owns (c : Thread nD τ) arg3 fullShare x3 ∗ owns (c : Thread nD τ) arg4 fullShare xs
        ∗ (iprop(owns (c : Thread nD τ) arg1 fullShare x0 ∗ owns (c : Thread nD τ) arg2 fullShare x1 ∗ owns (c : Thread nD τ) arg3 fullShare x3
            ∗ owns (c : Thread nD τ) arg4 fullShare (k3_pay2 x0 x1 xs)) -∗ K ⟨⟩))
      ⊢ wp frame (wpE (defs₀ (F := F)) Variants.none c none) E (cc3__ktv_kernel i arg1 harg1 arg2 harg2 arg3 harg3 arg4 harg4) K := by
  simp only [cc3__ktv_kernel_eq_skeleton]; unfold cc3__ktv_kernel_skel
  unfold owns
  iintro ⟨⟨%f0, %hf0, H0⟩, ⟨%f1, %hf1, H1⟩, ⟨%f3, %hf3, H3⟩, ⟨%f4, %hf4, H4⟩, Hk⟩
  subst hf0; subst hf1; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H3]
  · iexists f3; isplitr; · ipureintro; rfl
    iexact H3
  iexists _; isplitr
  swap; · iexact H4
  ipureintro
  refine (read_store_whole (Val := Elt F) arg4.view f4 _ _).trans ?_
  rw [readAt_whole, readAt_whole, readAt_whole]

set_option maxHeartbeats 1000000 in
/-- LAST POINT: the scratch, found at `xs`, ends at `xs` plus the block product, and the output's buffer, found at
    anything, ends at that sum rounded. -/
theorem runLast3 (c : Dev nD) (E : Set ℕ) (i : grid3.Coords) (arg1 : Memref sig .tc .vmem S1024x1024 .bf16) (harg1 : arg1.IsWhole)
    (arg2 : Memref sig .tc .vmem S1024x1024 .bf16) (harg2 : arg2.IsWhole) (arg3 : Memref sig .tc .vmem S1024x1024 .bf16) (harg3 : arg3.IsWhole)
    (arg4 : Memref sig .tc .vmem S1024x1024 .f32) (harg4 : arg4.IsWhole) (hc0 : ¬condFirst3 i) (hc1 : condLast3 i)
    (x0 x1 : Vec F S1024x1024 .bf16) (xs : Vec F S1024x1024 .f32) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xs
        ∗ (iprop(owns (c : Thread nD τ) arg1 fullShare x0 ∗ owns (c : Thread nD τ) arg2 fullShare x1 ∗ owns (c : Thread nD τ) arg3 fullShare (k3_pay3 (k3_pay2 x0 x1 xs))
            ∗ owns (c : Thread nD τ) arg4 fullShare (k3_pay2 x0 x1 xs)) -∗ K ⟨⟩))
      ⊢ wp frame (wpE (defs₀ (F := F)) Variants.none c none) E (cc3__ktv_kernel i arg1 harg1 arg2 harg2 arg3 harg3 arg4 harg4) K := by
  simp only [cc3__ktv_kernel_eq_skeleton]; unfold cc3__ktv_kernel_skel
  unfold owns
  iintro ⟨⟨%f0, %hf0, H0⟩, ⟨%f1, %hf1, H1⟩, ⟨%d3, %f3, -, H3⟩, ⟨%f4, %hf4, H4⟩, Hk⟩
  subst hf0; subst hf1; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    sl_unfold_words
    refine (read_store_whole (Val := Elt F) arg3.view f3 _ _).trans ?_
    rw [readCov_whole, readAt_whole, readAt_whole, readAt_whole]
  iexists _; isplitr
  swap; · iexact H4
  ipureintro
  sl_unfold_words
  refine (read_store_whole (Val := Elt F) arg4.view f4 _ _).trans ?_
  rw [readAt_whole, readAt_whole, readAt_whole]

/-! ## What the scratch holds after each point -/

/-- The scratch after point `n`: after the first point the first block's product over the cleared contents, after each
    later point that point's block product added to what the point before left. -/
def acc3 (c : Dev nD) : (n : ℕ) → n < cfg3.N → Vec F S1024x1024 .f32
  | 0, h => k3_pay2 (iblk3 V c 0 ⟨0, h⟩) (iblk3 V c 1 ⟨0, h⟩) k3_pay1
  | n + 1, h => k3_pay2 (iblk3 V c 0 ⟨n + 1, h⟩) (iblk3 V c 1 ⟨n + 1, h⟩) (acc3 c n (Nat.lt_of_succ_lt h))

theorem acc3_zero (c : Dev nD) (t : Fin cfg3.N) (hz : t.val = 0) :
    acc3 V c t.val t.isLt = k3_pay2 (iblk3 V c 0 t) (iblk3 V c 1 t) k3_pay1 := by
  obtain ⟨n, hn⟩ := t; dsimp only at hz; subst hz; rfl

theorem acc3_pos (c : Dev nD) (t : Fin cfg3.N) (hz : t.val ≠ 0) :
    acc3 V c t.val t.isLt = k3_pay2 (iblk3 V c 0 t) (iblk3 V c 1 t) (acc3 V c (t.val - 1) (Nat.lt_of_le_of_lt (Nat.sub_le _ _) t.isLt)) := by
  obtain ⟨n, hn⟩ := t
  cases n with
  | zero => exact absurd rfl hz
  | succ n => rfl

/-! ## The invariant between points -/

/-- The scoped buffers that are neither a staging buffer of this region nor its scratch, each at some contents. -/
abbrev But3 (c : Dev nD) : sProp 𝕄 :=
  Pipeline.scopedRestBut (Ix := Unit) (Name := ℕ) (U := UR sig nD τ) (Lvl := ℕ) (Val := Elt F) spec3 c [cc3_scratch0]

/-- What the region is entered with — the scoped rest and the generator register — with the scratch split out. -/
theorem PhiA3_eq (c : Dev nD) :
    (Pipeline.ΦA spec3 c : sProp 𝕄)
      = iprop(((∃ d, owns (c : Thread nD τ) scM3 fullShare d) ∗ But3 c) ∗ ∃ r, prngReg c r) := by
  unfold Pipeline.ΦA
  rw [Pipeline.scopedRest_split_of_list spec3 c [cc3_scratch0] (by decide) (by decide)]
  simp only [scM3, owns_whole]
  rfl

/-- The invariant before position `n`: before the first point what the region is entered with (the scratch at
    anything); afterwards the scratch at what the point before left, the other scoped buffers at anything, the
    generator register at some state. -/
def PhiS3 (c : Dev nD) : (n : ℕ) → n ≤ cfg3.N → sProp 𝕄
  | 0, _ => Pipeline.ΦA spec3 c
  | n + 1, hn => iprop((owns (c : Thread nD τ) scM3 fullShare (acc3 V c n hn) ∗ But3 c) ∗ ∃ r, prngReg c r)

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop((owns (c : Thread nD τ) scM3 fullShare (acc3 V c n hn) ∗ But3 c) ∗ ∃ r, prngReg c r) := rfl

theorem PhiS3_pos (c : Dev nD) (n : ℕ) (h : n ≤ cfg3.N) (hz : n ≠ 0) :
    PhiS3 V c n h = iprop((owns (c : Thread nD τ) scM3 fullShare (acc3 V c (n - 1) (by omega)) ∗ But3 c) ∗ ∃ r, prngReg c r) := by
  cases n with
  | zero => exact absurd rfl hz
  | succ n => rfl

/-! ## The proof data -/

/-- The proof data of pipeline 3 on core `c`: the arrays as the region finds them; after the body at a point the
    inputs' buffers at their blocks and the output's at the scratch rounded (read only at the last point, the one
    point that stores it and writes it back); the invariant above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay3 (acc3 V c t.val t.isLt)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem owed3 (c : Dev nD) (t : Fin (cfg3.N + 1)) : (dat3 V c).owed t = 0 := rfl
theorem q3 (c : Dev nD) (w : Fin cfg3.W) : (dat3 V c).q w = fullShare := rfl

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = k3_pay3 (acc3 V c t.val t.isLt) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4000000 in
/-- The body at any point: the inputs' memrefs hold their blocks; the point is the first, the last or a middle one,
    and that case's triple applies — the invariant hands over the scratch at what the point before left (at anything
    at the first point) and takes it back at this point's contents; the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 8 := lt_of_lt_of_eq t.isLt (show cfg3.N = 8 from N_3)
  rw [show (dat3 V c).leavesExact 0 t = owns (c : Thread nD τ) (st3_0 t) fullShare ((dat3 V c).after 0 t) from rfl, after3_0,
    show (dat3 V c).leavesExact 1 t = owns (c : Thread nD τ) (st3_1 t) fullShare ((dat3 V c).after 1 t) from rfl, after3_1]
  by_cases h0 : t.val % 8 = 0
  · have h7 : ¬ t.val % 8 = 7 := by omega
    have hz : t.val = 0 := by omega
    rw [Dat.leavesExact_idle (dat3 V c) 2 t (idle3_2 t (fun h => h7 ((hcondLast3 t).mp h))) (noFlush3_2 t (fun h => h7 ((hcondLast3 t).mp h)))]
    rw [acc3_zero V c t hz, PhiS3_castSucc V c t, PhiS3_zero V c _ _ hz, PhiA3_eq]
    iintro ⟨⟨⟨HS, Hb⟩, Hg⟩, Ho, ⟨%d0, H0⟩, ⟨%d1, H1⟩, ⟨%d2, H2⟩⟩
    iapply (runFirst3 c Set.univ (grid3.coords t) _ _ _ _ _ _ _ _ ((hcondFirst3 t).mpr h0) (fun h => h7 ((hcondLast3 t).mp h)) (iblk3 V c 0 t) (iblk3 V c 1 t) ((dat3 V c).before 2 t d2) _)
    isplitl [H0]; · iexact H0
    isplitl [H1]; · iexact H1
    isplitl [H2]; · iexact H2
    isplitl [HS]; · iexact HS
    iintro ⟨H0, H1, H2, HS⟩
    isplitl [HS Hb Hg]
    · isplitl [HS Hb]
      · isplitl [HS]; · iexact HS
        iexact Hb
      iexact Hg
    isplitl [Ho]; · iexact Ho
    isplitl [H0]; · iexact H0
    isplitl [H1]; · iexact H1
    iexists d2; iexact H2
  · have hz : t.val ≠ 0 := by omega
    by_cases h7 : t.val % 8 = 7
    · rw [show (dat3 V c).leavesExact 2 t = owns (c : Thread nD τ) (st3_2 t) fullShare ((dat3 V c).after 2 t) from by
        unfold Dat.leavesExact; rw [live3_2 t ((hcondLast3 t).mpr h7)], after3_2]
      rw [acc3_pos V c t hz, PhiS3_castSucc V c t, PhiS3_pos V c _ _ hz]
      iintro ⟨⟨⟨HS, Hb⟩, Hg⟩, Ho, ⟨%d0, H0⟩, ⟨%d1, H1⟩, ⟨%d2, H2⟩⟩
      iapply (runLast3 c Set.univ (grid3.coords t) _ _ _ _ _ _ _ _ (fun h => h0 ((hcondFirst3 t).mp h)) ((hcondLast3 t).mpr h7) (iblk3 V c 0 t) (iblk3 V c 1 t) _ _)
      isplitl [H0]; · iexact H0
      isplitl [H1]; · iexact H1
      isplitl [H2]; · iexists _; iexact H2
      isplitl [HS]; · iexact HS
      iintro ⟨H0, H1, H2, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      iexact H2
    · rw [Dat.leavesExact_idle (dat3 V c) 2 t (idle3_2 t (fun h => h7 ((hcondLast3 t).mp h))) (noFlush3_2 t (fun h => h7 ((hcondLast3 t).mp h)))]
      rw [acc3_pos V c t hz, PhiS3_castSucc V c t, PhiS3_pos V c _ _ hz]
      iintro ⟨⟨⟨HS, Hb⟩, Hg⟩, Ho, ⟨%d0, H0⟩, ⟨%d1, H1⟩, ⟨%d2, H2⟩⟩
      iapply (runMid3 c Set.univ (grid3.coords t) _ _ _ _ _ _ _ _ (fun h => h0 ((hcondFirst3 t).mp h)) (fun h => h7 ((hcondLast3 t).mp h)) (iblk3 V c 0 t) (iblk3 V c 1 t) ((dat3 V c).before 2 t d2) _ _)
      isplitl [H0]; · iexact H0
      isplitl [H1]; · iexact H1
      isplitl [H2]; · iexact H2
      isplitl [HS]; · iexact HS
      iintro ⟨H0, H1, H2, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      iexists d2; iexact H2

/-- The body obligation at every point. -/
theorem body_obligation3 (c : Dev nD) : BodyObligation (dat3 (F := F) V c) (defs₀ (F := F)) Variants.none () Set.univ := fun t => by
  rw [bigSep_W3, bigSep_W3]
  exact sound_body3 V c t

/-- What the region is entered with is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives it back, the scratch's contents forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 8 := N_3; omega), PhiA3_eq]
  iintro ⟨⟨HS, Hb⟩, Hg⟩
  isplitl [HS Hb]
  · isplitl [HS]; · iexists _; iexact HS
    iexact Hb
  iexact Hg

end Cert.Kernel.Hand

end
-- ==== Proof.KB.Reg4.lean ====
/-
  Region 4 of @main — one matrix product per grid point, a block of 1024 rows of the left operand against the whole
  right operand — as the pipeline's proof data: what each window's staging buffer holds after the body at a point
  (the inputs their blocks, the output the body's one store over them), the body's triple on whole staging memrefs,
  and the obligation at every point. Stated at a parameter `V`, the core's buffer contents when the region is entered.
-/
import proofs.«131888_j68736656605705_1_alg».proof.Proof.Gen.Kernel.Launch
import proofs.«131888_j68736656605705_1_alg».proof.Proof.Gen.Kernel.Skeleton
import proofs.«131888_j68736656605705_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The left operand's staging buffer holds the point's block of rows, whether fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The right operand's staging buffer holds the whole right operand at every point: it is fetched once, at the first
    point, and its block index never moves. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The one rectangle the body reads and writes through: the whole 1024 × 1024 block. -/
abbrev rw4 : Rect S1024x1024 := Rect.unit (s := S1024x1024) ![0, 0] S1024x1024.size inb_S1024x1024_S1024x1024_0_0

/-- The output's staging buffer after the body: the product of the two input blocks, stored whole. -/
def out4_2 (x0 : Vec F S1024x1024 .bf16) (x1 : Vec F S1024x1024 .bf16) : Vec F S1024x1024 .f32 :=
  View.canon [⟨rw4, k4_pay1 (View.ld x0 rw4) (View.ld x1 rw4)⟩]

/-- The one store covers the buffer. -/
theorem cover4_2 (p0 : Vec F S1024x1024 .f32) (y : S1024x1024.Idx) :
    ∃ pc ∈ ([⟨rw4, p0⟩] : List (View.Piece (Elt F) S1024x1024 .f32)), y ∈ pc.1.set :=
  View.cover_of_tiled [⟨rw4, p0⟩] S1024x1024.size (by rfl) y

set_option maxHeartbeats 1000000 in
/-- The body on whole staging memrefs: the inputs' at contents `x0`, `x1` and the output's at anything; it ends with
    the inputs as they were and the output at `out4_2 x0 x1`. -/
theorem sound_kernel4 (c : Dev nD) (E : Set ℕ) (i : grid4.Coords) (arg1 : Memref sig .tc .vmem S1024x1024 .bf16) (harg1 : arg1.IsWhole)
    (arg2 : Memref sig .tc .vmem S1024x1024 .bf16) (harg2 : arg2.IsWhole) (arg3 : Memref sig .tc .vmem S1024x1024 .f32) (harg3 : arg3.IsWhole)
    (x0 : Vec F S1024x1024 .bf16) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__qm_kernel i arg1 harg1 arg2 harg2 arg3 harg3) K := by
  simp only [cc4__qm_kernel_eq_skeleton]; unfold cc4__qm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The proof data of pipeline 4 on core `c`: the arrays as the region finds them; after the body at a point the
    inputs' buffers at their blocks and the output's at their product; the invariant the scoped rest and the generator
    register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.KB.Run.lean ====
/-
  The run of @main: five kernel regions in a row, no host operation between them. The buffers' contents at each
  boundary are a fold from the launch memory — a region's arrays at what its write-backs leave, every other buffer
  as it was —; every weakly fair execution terminates with every unscoped buffer at the last boundary's contents.
  Read at the four arguments, which no region writes, that is the frame; read at the result, it is what region 4's
  write-backs leave.
-/
import proofs.«131888_j68736656605705_1_alg».proof.Proof.KB.Reg0
import proofs.«131888_j68736656605705_1_alg».proof.Proof.KB.Reg1
import proofs.«131888_j68736656605705_1_alg».proof.Proof.KB.Reg2
import proofs.«131888_j68736656605705_1_alg».proof.Proof.KB.Reg3
import proofs.«131888_j68736656605705_1_alg».proof.Proof.KB.Reg4

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m ((c : Dev nD), b)
/-- The same read at the TensorCore's references (what region 0's proof data take). -/
abbrev V0 : (c : Dev nD) → (b : Ref sig .tc) → Buf (Elt F) ((c : Thread nD τ).loc b) := fun c b => W0 m c b

/-- After region 0: its arrays at what its write-backs leave, every other buffer as before it. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After region 1: its arrays at what its write-backs leave, every other buffer as before it. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After region 2: its arrays at what its write-backs leave, every other buffer as before it. -/
def W3 (c : Dev nD) : Valuation τ sig (Elt F) :=
  Pipeline.withArrays spec2 c (W2 m c) fun w => (dat2 (V2 m) c).arrAt w cfg2.N
theorem W3_arr (c : Dev nD) (w : Fin cfg2.W) :
    W3 m c (Proc.devRef .tc (Pipeline.arrRef spec2 w)) = (dat2 (V2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
/-- The same read at the TensorCore's references. -/
abbrev V3 : (c : Dev nD) → (b : Ref sig .tc) → Buf (Elt F) ((c : Thread nD τ).loc b) := fun c b => W3 m c b
theorem hF2 (c : Dev nD) (w : Fin cfg2.W) : (dat2 (V2 m) c).arrAt w cfg2.N = V3 m c (Pipeline.arrRef spec2 w) :=
  (W3_arr m c w).symm
theorem hrest2 (c : Dev nD) : ∀ b, b ∉ Finset.univ.image (Pipeline.arrRef spec2) → V3 m c b = V2 m c b :=
  fun b hb => W3_of_ne m c b fun w e => hb (Finset.mem_image.mpr ⟨w, Finset.mem_univ _, e⟩)

/-- After region 3: its arrays at what its write-backs leave, every other buffer as before it. -/
def W4 (c : Dev nD) : Valuation τ sig (Elt F) :=
  Pipeline.withArrays spec3 c (W3 m c) fun w => (dat3 (V3 m) c).arrAt w cfg3.N
theorem W4_arr (c : Dev nD) (w : Fin cfg3.W) :
    W4 m c (Proc.devRef .tc (Pipeline.arrRef spec3 w)) = (dat3 (V3 m) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m c (Proc.devRef .tc b) = W3 m c (Proc.devRef .tc b) := by
  unfold W4; exact Pipeline.withArrays_of_ne spec3 c _ _ b hb
/-- The same read at the TensorCore's references. -/
abbrev V4 : (c : Dev nD) → (b : Ref sig .tc) → Buf (Elt F) ((c : Thread nD τ).loc b) := fun c b => W4 m c b
theorem hF3 (c : Dev nD) (w : Fin cfg3.W) : (dat3 (V3 m) c).arrAt w cfg3.N = V4 m c (Pipeline.arrRef spec3 w) :=
  (W4_arr m c w).symm
theorem hrest3 (c : Dev nD) : ∀ b, b ∉ Finset.univ.image (Pipeline.arrRef spec3) → V4 m c b = V3 m c b :=
  fun b hb => W4_of_ne m c b fun w e => hb (Finset.mem_image.mpr ⟨w, Finset.mem_univ _, e⟩)

/-- After region 4: its arrays at what its write-backs leave, every other buffer as before it. -/
def W5 (c : Dev nD) : Valuation τ sig (Elt F) :=
  Pipeline.withArrays spec4 c (W4 m c) fun w => (dat4 (V4 m) c).arrAt w cfg4.N
theorem W5_arr (c : Dev nD) (w : Fin cfg4.W) :
    W5 m c (Proc.devRef .tc (Pipeline.arrRef spec4 w)) = (dat4 (V4 m) c).arrAt w cfg4.N := by
  unfold W5; exact Pipeline.withArrays_arr spec4 launch4.win.arr_inj c _ _ w
theorem W5_of_ne (c : Dev nD) (b : Ref sig .tc) (hb : ∀ w, Pipeline.arrRef spec4 w ≠ b) :
    W5 m c (Proc.devRef .tc b) = W4 m c (Proc.devRef .tc b) := by
  unfold W5; exact Pipeline.withArrays_of_ne spec4 c _ _ b hb
/-- The same read at the TensorCore's references. -/
abbrev V5 : (c : Dev nD) → (b : Ref sig .tc) → Buf (Elt F) ((c : Thread nD τ).loc b) := fun c b => W5 m c b
theorem hF4 (c : Dev nD) (w : Fin cfg4.W) : (dat4 (V4 m) c).arrAt w cfg4.N = V5 m c (Pipeline.arrRef spec4 w) :=
  (W5_arr m c w).symm
theorem hrest4 (c : Dev nD) : ∀ b, b ∉ Finset.univ.image (Pipeline.arrRef spec4) → V5 m c b = V4 m c b :=
  fun b hb => W5_of_ne m c b fun w e => hb (Finset.mem_image.mpr ⟨w, Finset.mem_univ _, e⟩)

/-! ## No region writes an argument -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of_ne m c main_arg0 (by decide)
    _ = W3 m c (Proc.devRef .tc main_arg0) := W4_of_ne m c main_arg0 (by decide)
    _ = W2 m c (Proc.devRef .tc main_arg0) := (W3_arr m c 0).trans (((dat2 (V2 m) c).arrAt_in 0 rfl _).trans (A_eq2 (V2 m) c 0))
    _ = W1 m c (Proc.devRef .tc main_arg0) := (W2_arr m c 0).trans (((dat1 (V1 m) c).arrAt_in 0 rfl _).trans (A_eq1 (V1 m) c 0))
    _ = W0 m c (Proc.devRef .tc main_arg0) := (W1_arr m c 0).trans (((dat0 (V0 m) c).arrAt_in 0 rfl _).trans (A_eq0 (V0 m) c 0))
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of_ne m c main_arg1 (by decide)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := (W1_arr m c 1).trans (((dat0 (V0 m) c).arrAt_in 1 rfl _).trans (A_eq0 (V0 m) c 1))
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of_ne m c main_arg2 (by decide)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := (W2_arr m c 1).trans (((dat1 (V1 m) c).arrAt_in 1 rfl _).trans (A_eq1 (V1 m) c 1))
    _ = W0 m c (Proc.devRef .tc main_arg2) := W1_of_ne m c main_arg2 (by decide)
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of_ne m c main_arg3 (by decide)
    _ = W3 m c (Proc.devRef .tc main_arg3) := W4_of_ne m c main_arg3 (by decide)
    _ = W2 m c (Proc.devRef .tc main_arg3) := (W3_arr m c 1).trans (((dat2 (V2 m) c).arrAt_in 1 rfl _).trans (A_eq2 (V2 m) c 1))
    _ = W1 m c (Proc.devRef .tc main_arg3) := W2_of_ne m c main_arg3 (by decide)
    _ = W0 m c (Proc.devRef .tc main_arg3) := W1_of_ne m c main_arg3 (by decide)
    _ = m ((c : Thread nD τ).loc main_arg3) := rfl

/-! ## What each region finds in the arrays it reads -/

theorem V1_main_arg0 (c : Dev nD) : V1 m c main_arg0 = m ((c : Thread nD τ).loc main_arg0) :=
  (W1_arr m c 0).trans (((dat0 (V0 m) c).arrAt_in 0 rfl _).trans (A_eq0 (V0 m) c 0))
theorem V1_main_arg2 (c : Dev nD) : V1 m c main_arg2 = m ((c : Thread nD τ).loc main_arg2) := W1_of_ne m c main_arg2 (by decide)
theorem V2_main_arg0 (c : Dev nD) : V2 m c main_arg0 = m ((c : Thread nD τ).loc main_arg0) :=
  ((W2_arr m c 0).trans (((dat1 (V1 m) c).arrAt_in 0 rfl _).trans (A_eq1 (V1 m) c 0))).trans (V1_main_arg0 m c)
theorem V2_main_arg3 (c : Dev nD) : V2 m c main_arg3 = m ((c : Thread nD τ).loc main_arg3) :=
  (W2_of_ne m c main_arg3 (by decide)).trans (W1_of_ne m c main_arg3 (by decide))
/-- Region 3 reads k and v as regions 1 and 2 left them. -/
theorem V3_main_v1 (c : Dev nD) : V3 m c main_v1 = (dat1 (V1 m) c).arrAt 2 cfg1.N :=
  (W3_of_ne m c main_v1 (by decide)).trans (W2_arr m c 2)
theorem V3_main_v2 (c : Dev nD) : V3 m c main_v2 = (dat2 (V2 m) c).arrAt 2 cfg2.N := W3_arr m c 2
/-- Region 4 reads q as region 0 left it and kᵀ·v as region 3 left it. -/
theorem V4_main_v0 (c : Dev nD) : V4 m c main_v0 = (dat0 (V0 m) c).arrAt 2 cfg0.N :=
  (W4_of_ne m c main_v0 (by decide)).trans ((W3_of_ne m c main_v0 (by decide)).trans ((W2_of_ne m c main_v0 (by decide)).trans (W1_arr m c 2)))
theorem V4_main_v3 (c : Dev nD) : V4 m c main_v3 = (dat3 (V3 m) c).arrAt 2 cfg3.N := W4_arr m c 2
/-- The result is what region 4's write-backs leave. -/
theorem W5_main_v4 (c : Dev nD) : W5 m c (Proc.devRef .tc main_v4) = (dat4 (V4 m) c).arrAt 2 cfg4.N := W5_arr m c 2

/-! ## The proof data family and the thread state -/

/-- No pallas_call has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V2 m) c
  | ⟨3, _⟩ => fun c => dat3 (V3 m) c
  | ⟨4, _⟩ => fun c => dat4 (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every region: the generator register at some state, and nothing owed. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- REGION 0 over the thread state: entered with every unscoped buffer at the contents before it, left with them at
    the contents after it — its windows' arrays split out of the unscoped buffers on entry and put back on exit at
    what the write-backs leave; the generator register into the region's invariant and out; nothing owed; no semaphore
    of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered with every unscoped buffer at the contents before it, left with them at
    the contents after it — its windows' arrays split out of the unscoped buffers on entry and put back on exit at
    what the write-backs leave; the generator register into the region's invariant and out; nothing owed; no semaphore
    of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered with every unscoped buffer at the contents before it, left with them at
    the contents after it — its windows' arrays split out of the unscoped buffers on entry and put back on exit at
    what the write-backs leave; the generator register into the region's invariant and out; nothing owed; no semaphore
    of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec2 c (V2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V2 m c) (V3 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered with every unscoped buffer at the contents before it, left with them at
    the contents after it — its windows' arrays split out of the unscoped buffers on entry and put back on exit at
    what the write-backs leave; the generator register into the region's invariant and out; nothing owed; no semaphore
    of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V3 m) c).loose
  hwaits := Pipeline.hwaits_of_owed_zero _ _ _ _ L lv 3 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec3 c (V3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    have h : (Pipeline.ΦA spec3 c : sProp 𝕄)
        ⊢ iprop((∃ r, prngReg c r) ∗ BI.emp ∗ Pipeline.scopedRest (Pipeline.pin (pcfgs (F := F)) adm 3).spec c) := by
      unfold Pipeline.ΦA
      iintro ⟨Hr, Hp⟩
      isplitl [Hp]; · iexact Hp
      isplitr; · iempintro
      iexact Hr
    exact (hout3 (V3 m) c).trans h
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V3 m c) (V4 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered with every unscoped buffer at the contents before it, left with them at
    the contents after it — its windows' arrays split out of the unscoped buffers on entry and put back on exit at
    what the write-backs leave; the generator register into the region's invariant and out; nothing owed; no semaphore
    of the kernel's own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V4 m) c).loose
  hwaits := Pipeline.hwaits_of_owed_zero _ _ _ _ L lv 4 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none]
    rw [show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V4 m c) (V5 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m), .region (reg2 m), .region (reg3 m), .region (reg4 m) ]

theorem main_run (c : Dev nD) : main (F := F) c = Pipeline.Seg.run (segs m) := (main_chain c).trans (by chain_rfl)

variable (ρ : Dev nD → PrngReg)

set_option backward.isDefEq.respectTransparency.types false in
/-- From any memory with zero counters every weakly fair execution of @main terminates, nothing faulting, and the
    final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_all m ρ)

/-- THE RESULT: it ends at what region 4's write-backs leave, beside the frame. -/
theorem run_value : θ_run defs (onTc (τ := τ) (main (F := F))) ⟨m, fun _ => 0, ρ⟩ (fun r => ∀ c : Dev nD,
      r.2.mem ((c.tc : Thread nD τ).loc main_v4) = (dat4 (V4 m) c).arrAt 2 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v4 (by decide))).trans (W5_main_v4 m c),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_all m ρ)

end Cert.Kernel.Hand

end
-- ==== Proof.KI.Reg0.lean ====
/-
  Region 0 of @main — one matrix product per grid point, a block of 1024 rows of the left operand against the whole
  right operand — as the pipeline's proof data: what each window's staging buffer holds after the body at a point
  (the inputs their blocks, the output the body's one store over them), the body's triple on whole staging memrefs,
  and the obligation at every point. Stated at a parameter `V`, the core's buffer contents when the region is entered.
-/
import proofs.«131888_j68736656605705_1_alg».proof.Proof.Gen.KernelIdeal.Launch
import proofs.«131888_j68736656605705_1_alg».proof.Proof.Gen.KernelIdeal.Skeleton
import proofs.«131888_j68736656605705_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds the point's block of rows, whether fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's staging buffer holds the whole right operand at every point: it is fetched once, at the first
    point, and its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body reads and writes through: the whole 1024 × 1024 block. -/
abbrev rw0 : Rect S1024x1024 := Rect.unit (s := S1024x1024) ![0, 0] S1024x1024.size inb_S1024x1024_S1024x1024_0_0

/-- The output's staging buffer after the body: the product of the two input blocks, stored whole. -/
def out0_2 (x0 : Vec F S1024x1024 .f32) (x1 : Vec F S1024x1024 .f32) : Vec F S1024x1024 .bf16 :=
  View.canon [⟨rw0, k0_pay1 (View.ld x0 rw0) (View.ld x1 rw0)⟩]

/-- The one store covers the buffer. -/
theorem cover0_2 (p0 : Vec F S1024x1024 .bf16) (y : S1024x1024.Idx) :
    ∃ pc ∈ ([⟨rw0, p0⟩] : List (View.Piece (Elt F) S1024x1024 .bf16)), y ∈ pc.1.set :=
  View.cover_of_tiled [⟨rw0, p0⟩] S1024x1024.size (by rfl) y

set_option maxHeartbeats 1000000 in
/-- The body on whole staging memrefs: the inputs' at contents `x0`, `x1` and the output's at anything; it ends with
    the inputs as they were and the output at `out0_2 x0 x1`. -/
theorem sound_kernel0 (c : Dev nD) (E : Set ℕ) (i : grid0.Coords) (arg1 : Memref sig .tc .vmem S1024x1024 .f32) (harg1 : arg1.IsWhole)
    (arg2 : Memref sig .tc .vmem S1024x1024 .f32) (harg2 : arg2.IsWhole) (arg3 : Memref sig .tc .vmem S1024x1024 .bf16) (harg3 : arg3.IsWhole)
    (x0 : Vec F S1024x1024 .f32) (x1 : Vec F S1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at a point the
    inputs' buffers at their blocks and the output's at their product; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1 of @main — one matrix product per grid point, a block of 1024 rows of the left operand against the whole
  right operand — as the pipeline's proof data: what each window's staging buffer holds after the body at a point
  (the inputs their blocks, the output the body's one store over them), the body's triple on whole staging memrefs,
  and the obligation at every point. Stated at a parameter `V`, the core's buffer contents when the region is entered.
-/
import proofs.«131888_j68736656605705_1_alg».proof.Proof.Gen.KernelIdeal.Launch
import proofs.«131888_j68736656605705_1_alg».proof.Proof.Gen.KernelIdeal.Skeleton
import proofs.«131888_j68736656605705_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds the point's block of rows, whether fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right operand's staging buffer holds the whole right operand at every point: it is fetched once, at the first
    point, and its block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body reads and writes through: the whole 1024 × 1024 block. -/
abbrev rw1 : Rect S1024x1024 := Rect.unit (s := S1024x1024) ![0, 0] S1024x1024.size inb_S1024x1024_S1024x1024_0_0

/-- The output's staging buffer after the body: the product of the two input blocks, stored whole. -/
def out1_2 (x0 : Vec F S1024x1024 .f32) (x1 : Vec F S1024x1024 .f32) : Vec F S1024x1024 .bf16 :=
  View.canon [⟨rw1, k1_pay1 (View.ld x0 rw1) (View.ld x1 rw1)⟩]

/-- The one store covers the buffer. -/
theorem cover1_2 (p0 : Vec F S1024x1024 .bf16) (y : S1024x1024.Idx) :
    ∃ pc ∈ ([⟨rw1, p0⟩] : List (View.Piece (Elt F) S1024x1024 .bf16)), y ∈ pc.1.set :=
  View.cover_of_tiled [⟨rw1, p0⟩] S1024x1024.size (by rfl) y

set_option maxHeartbeats 1000000 in
/-- The body on whole staging memrefs: the inputs' at contents `x0`, `x1` and the output's at anything; it ends with
    the inputs as they were and the output at `out1_2 x0 x1`. -/
theorem sound_kernel1 (c : Dev nD) (E : Set ℕ) (i : grid1.Coords) (arg1 : Memref sig .tc .vmem S1024x1024 .f32) (harg1 : arg1.IsWhole)
    (arg2 : Memref sig .tc .vmem S1024x1024 .f32) (harg2 : arg2.IsWhole) (arg3 : Memref sig .tc .vmem S1024x1024 .bf16) (harg3 : arg3.IsWhole)
    (x0 : Vec F S1024x1024 .f32) (x1 : Vec F S1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__proj_kernel i arg1 harg1 arg2 harg2 arg3 harg3) K := by
  simp only [cc1__proj_kernel_eq_skeleton]; unfold cc1__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of pipeline 1 on core `c`: the arrays as the region finds them; after the body at a point the
    inputs' buffers at their blocks and the output's at their product; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  Region 2 of @main — one matrix product per grid point, a block of 1024 rows of the left operand against the whole
  right operand — as the pipeline's proof data: what each window's staging buffer holds after the body at a point
  (the inputs their blocks, the output the body's one store over them), the body's triple on whole staging memrefs,
  and the obligation at every point. Stated at a parameter `V`, the core's buffer contents when the region is entered.
-/
import proofs.«131888_j68736656605705_1_alg».proof.Proof.Gen.KernelIdeal.Launch
import proofs.«131888_j68736656605705_1_alg».proof.Proof.Gen.KernelIdeal.Skeleton
import proofs.«131888_j68736656605705_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds the point's block of rows, whether fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The right operand's staging buffer holds the whole right operand at every point: it is fetched once, at the first
    point, and its block index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The one rectangle the body reads and writes through: the whole 1024 × 1024 block. -/
abbrev rw2 : Rect S1024x1024 := Rect.unit (s := S1024x1024) ![0, 0] S1024x1024.size inb_S1024x1024_S1024x1024_0_0

/-- The output's staging buffer after the body: the product of the two input blocks, stored whole. -/
def out2_2 (x0 : Vec F S1024x1024 .f32) (x1 : Vec F S1024x1024 .f32) : Vec F S1024x1024 .bf16 :=
  View.canon [⟨rw2, k2_pay1 (View.ld x0 rw2) (View.ld x1 rw2)⟩]

/-- The one store covers the buffer. -/
theorem cover2_2 (p0 : Vec F S1024x1024 .bf16) (y : S1024x1024.Idx) :
    ∃ pc ∈ ([⟨rw2, p0⟩] : List (View.Piece (Elt F) S1024x1024 .bf16)), y ∈ pc.1.set :=
  View.cover_of_tiled [⟨rw2, p0⟩] S1024x1024.size (by rfl) y

set_option maxHeartbeats 1000000 in
/-- The body on whole staging memrefs: the inputs' at contents `x0`, `x1` and the output's at anything; it ends with
    the inputs as they were and the output at `out2_2 x0 x1`. -/
theorem sound_kernel2 (c : Dev nD) (E : Set ℕ) (i : grid2.Coords) (arg1 : Memref sig .tc .vmem S1024x1024 .f32) (harg1 : arg1.IsWhole)
    (arg2 : Memref sig .tc .vmem S1024x1024 .f32) (harg2 : arg2.IsWhole) (arg3 : Memref sig .tc .vmem S1024x1024 .bf16) (harg3 : arg3.IsWhole)
    (x0 : Vec F S1024x1024 .f32) (x1 : Vec F S1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__proj_kernel i arg1 harg1 arg2 harg2 arg3 harg3) K := by
  simp only [cc2__proj_kernel_eq_skeleton]; unfold cc2__proj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of pipeline 2 on core `c`: the arrays as the region finds them; after the body at a point the
    inputs' buffers at their blocks and the output's at their product; the invariant the scoped rest and the generator
    register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/-
  Region 3 of @main — kᵀ·v accumulated over the grid's 8 points, 1024 rows of k and v at a time, in a scratch buffer
  that the first point clears and every point adds its block's product to; the last point rounds the scratch into
  the output block. As the pipeline's proof data: what the scratch holds after each point, by recursion on the point
  (the invariant carries it from one point to the next), what each window's staging buffer holds after the body, the
  body's triple in each of its three control cases (first point, middle points, last point), and the obligation at
  every point. Stated at a parameter `V`, the core's buffer contents when the region is entered.
-/
import proofs.«131888_j68736656605705_1_alg».proof.Proof.Gen.KernelIdeal.Launch
import proofs.«131888_j68736656605705_1_alg».proof.Proof.Gen.KernelIdeal.Skeleton
import proofs.«131888_j68736656605705_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The staging buffer of k holds the point's block of rows. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The staging buffer of v holds the point's block of rows. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's two branches, decided over the grid -/

/-- The first branch (clear the scratch) is taken where the grid coordinate is 0, -/
abbrev condFirst3 (i : grid3.Coords) : Prop := (Scalar.cmpi .ne (Scalar.extui (Scalar.cmpi .eq (BitVec.ofNat 32 (i 0).val) 0#32)) 0#32) = 1#1
theorem hcondFirst3 : ∀ t : Fin cfg3.N, condFirst3 (grid3.coords t) ↔ t.val % 8 = 0 :=
  (by decide +kernel : ∀ t : Fin grid3.N, condFirst3 (grid3.coords t) ↔ t.val % 8 = 0)
/-- the second (round the scratch into the output) where it is 7. -/
abbrev condLast3 (i : grid3.Coords) : Prop := k3_cond2 i = 1#1
theorem hcondLast3 : ∀ t : Fin cfg3.N, condLast3 (grid3.coords t) ↔ t.val % 8 = 7 :=
  (by decide +kernel : ∀ t : Fin grid3.N, condLast3 (grid3.coords t) ↔ t.val % 8 = 7)

/-- The output window is idle (not stored, not written back) at every point but the last. -/
theorem idle3_2 : ∀ t : Fin cfg3.N, ¬condLast3 (grid3.coords t) → cfg3.idle 2 (grid3.coords t) = true := by decide +kernel
theorem noFlush3_2 : ∀ t : Fin cfg3.N, ¬condLast3 (grid3.coords t) → (cfg3.win 2).flush t = false := by decide +kernel
theorem live3_2 : ∀ t : Fin cfg3.N, condLast3 (grid3.coords t) → cfg3.idle 2 (grid3.coords t) = false := by decide +kernel

/-- The one rectangle every load and store of the body goes through: the whole 1024 × 1024 buffer. -/
abbrev rw3 : Rect S1024x1024 := Rect.unit (s := S1024x1024) ![0, 0] S1024x1024.size inb_S1024x1024_S1024x1024_0_0
theorem hz3 : (![0, 0] : Fin S1024x1024.rank → Nat) = fun _ => 0 := by
  funext a; match a with | ⟨0, _⟩ => rfl | ⟨1, _⟩ => rfl

theorem mem_rw3 (y : S1024x1024.Idx) : y ∈ rw3.set := View.mem_set_unit_zero hz3 inb_S1024x1024_S1024x1024_0_0 y

section Whole
variable {Val : EltTy → Type} [∀ e, Nonempty (Val e)] {e : EltTy} {sg : RefSig} {κ : Kind} {sp : Space}

/-- After stores the last of which writes the whole buffer, the buffer reads that store's payload. -/
theorem read_store_whole (v : View sg κ sp S1024x1024 e) (f : v.ty.Contents Val) (w : S1024x1024.Idx → Val e)
    (L : List (View.Piece Val S1024x1024 e)) :
    v.read Val (v.writes Val f ((⟨rw3, w⟩ : View.Piece Val S1024x1024 e) :: L)) = w := by
  rw [View.read_writes_eq_canon v f _ (fun y => ⟨(⟨rw3, w⟩ : View.Piece Val S1024x1024 e), List.mem_cons_self, mem_rw3 y⟩)]
  exact View.canon_cons_unit_zero hz3 inb_S1024x1024_S1024x1024_0_0 w L

/-- A load of the whole buffer reads its contents. -/
theorem readAt_whole (v : View sg κ sp S1024x1024 e) (f : v.ty.Contents Val) :
    v.readAt Val rw3.toLoadRect f = v.read Val f := by
  rw [View.readAt_eq_ld]; exact View.ld_unit_zero hz3 inb_S1024x1024_S1024x1024_0_0 _

/-- A load of the whole buffer after one store of the whole buffer reads that store's payload. -/
theorem readCov_whole (v : View sg κ sp S1024x1024 e) (w : S1024x1024.Idx → Val e) :
    v.readCov [(⟨rw3, w⟩ : View.Piece Val S1024x1024 e)] rw3.toLoadRect = w :=
  View.readCov_unit_zero v hz3 inb_S1024x1024_S1024x1024_0_0 w

end Whole

/-- The scratch accumulator, a whole buffer of the kernel's own. -/
abbrev scM3 : Memref sig .tc .vmem S1024x1024 .f32 := Memref.whole cc3_scratch0

/-! ## The body's triple, case by case -/

set_option maxHeartbeats 1000000 in
/-- FIRST POINT: the scratch, found at anything, is cleared and then holds the block product added to the cleared
    contents; the output's buffer is untouched. -/
theorem runFirst3 (c : Dev nD) (E : Set ℕ) (i : grid3.Coords) (arg1 : Memref sig .tc .vmem S1024x1024 .bf16) (harg1 : arg1.IsWhole)
    (arg2 : Memref sig .tc .vmem S1024x1024 .bf16) (harg2 : arg2.IsWhole) (arg3 : Memref sig .tc .vmem S1024x1024 .bf16) (harg3 : arg3.IsWhole)
    (arg4 : Memref sig .tc .vmem S1024x1024 .f32) (harg4 : arg4.IsWhole) (hc0 : condFirst3 i) (hc1 : ¬condLast3 i)
    (x0 x1 x3 : Vec F S1024x1024 .bf16) (K : PUnit → sProp 𝕄) :
    iprop(owns (c : Thread nD τ) arg1 fullShare x0 ∗ owns (c : Thread nD τ) arg2 fullShare x1 ∗ owns (c : Thread nD τ) arg3 fullShare x3 ∗ (∃ d, owns (c : Thread nD τ) arg4 fullShare d)
        ∗ (iprop(owns (c : Thread nD τ) arg1 fullShare x0 ∗ owns (c : Thread nD τ) arg2 fullShare x1 ∗ owns (c : Thread nD τ) arg3 fullShare x3
            ∗ owns (c : Thread nD τ) arg4 fullShare (k3_pay2 x0 x1 k3_pay1)) -∗ K ⟨⟩))
      ⊢ wp frame (wpE (defs₀ (F := F)) Variants.none c none) E (cc3__ktv_kernel i arg1 harg1 arg2 harg2 arg3 harg3 arg4 harg4) K := by
  simp only [cc3__ktv_kernel_eq_skeleton]; unfold cc3__ktv_kernel_skel
  unfold owns
  iintro ⟨⟨%f0, %hf0, H0⟩, ⟨%f1, %hf1, H1⟩, ⟨%f3, %hf3, H3⟩, ⟨%d4, %f4, -, H4⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H3]
  · iexists f3; isplitr; · ipureintro; rfl
    iexact H3
  iexists _; isplitr
  swap; · iexact H4
  ipureintro
  sl_unfold_words
  refine (read_store_whole (Val := Elt F) arg4.view f4 _ _).trans ?_
  rw [readAt_whole, readAt_whole, readCov_whole]

set_option maxHeartbeats 1000000 in
/-- MIDDLE POINTS: the scratch, found at `xs`, ends at `xs` plus the block product; the output's buffer is untouched. -/
theorem runMid3 (c : Dev nD) (E : Set ℕ) (i : grid3.Coords) (arg1 : Memref sig .tc .vmem S1024x1024 .bf16) (harg1 : arg1.IsWhole)
    (arg2 : Memref sig .tc .vmem S1024x1024 .bf16) (harg2 : arg2.IsWhole) (arg3 : Memref sig .tc .vmem S1024x1024 .bf16) (harg3 : arg3.IsWhole)
    (arg4 : Memref sig .tc .vmem S1024x1024 .f32) (harg4 : arg4.IsWhole) (hc0 : ¬condFirst3 i) (hc1 : ¬condLast3 i)
    (x0 x1 x3 : Vec F S1024x1024 .bf16) (xs : Vec F S1024x1024 .f32) (K : PUnit → sProp 𝕄) :
    iprop(owns (c : Thread nD τ) arg1 fullShare x0 ∗ owns (c : Thread nD τ) arg2 fullShare x1 ∗ owns (c : Thread nD τ) arg3 fullShare x3 ∗ owns (c : Thread nD τ) arg4 fullShare xs
        ∗ (iprop(owns (c : Thread nD τ) arg1 fullShare x0 ∗ owns (c : Thread nD τ) arg2 fullShare x1 ∗ owns (c : Thread nD τ) arg3 fullShare x3
            ∗ owns (c : Thread nD τ) arg4 fullShare (k3_pay2 x0 x1 xs)) -∗ K ⟨⟩))
      ⊢ wp frame (wpE (defs₀ (F := F)) Variants.none c none) E (cc3__ktv_kernel i arg1 harg1 arg2 harg2 arg3 harg3 arg4 harg4) K := by
  simp only [cc3__ktv_kernel_eq_skeleton]; unfold cc3__ktv_kernel_skel
  unfold owns
  iintro ⟨⟨%f0, %hf0, H0⟩, ⟨%f1, %hf1, H1⟩, ⟨%f3, %hf3, H3⟩, ⟨%f4, %hf4, H4⟩, Hk⟩
  subst hf0; subst hf1; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H3]
  · iexists f3; isplitr; · ipureintro; rfl
    iexact H3
  iexists _; isplitr
  swap; · iexact H4
  ipureintro
  refine (read_store_whole (Val := Elt F) arg4.view f4 _ _).trans ?_
  rw [readAt_whole, readAt_whole, readAt_whole]

set_option maxHeartbeats 1000000 in
/-- LAST POINT: the scratch, found at `xs`, ends at `xs` plus the block product, and the output's buffer, found at
    anything, ends at that sum rounded. -/
theorem runLast3 (c : Dev nD) (E : Set ℕ) (i : grid3.Coords) (arg1 : Memref sig .tc .vmem S1024x1024 .bf16) (harg1 : arg1.IsWhole)
    (arg2 : Memref sig .tc .vmem S1024x1024 .bf16) (harg2 : arg2.IsWhole) (arg3 : Memref sig .tc .vmem S1024x1024 .bf16) (harg3 : arg3.IsWhole)
    (arg4 : Memref sig .tc .vmem S1024x1024 .f32) (harg4 : arg4.IsWhole) (hc0 : ¬condFirst3 i) (hc1 : condLast3 i)
    (x0 x1 : Vec F S1024x1024 .bf16) (xs : Vec F S1024x1024 .f32) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xs
        ∗ (iprop(owns (c : Thread nD τ) arg1 fullShare x0 ∗ owns (c : Thread nD τ) arg2 fullShare x1 ∗ owns (c : Thread nD τ) arg3 fullShare (k3_pay3 (k3_pay2 x0 x1 xs))
            ∗ owns (c : Thread nD τ) arg4 fullShare (k3_pay2 x0 x1 xs)) -∗ K ⟨⟩))
      ⊢ wp frame (wpE (defs₀ (F := F)) Variants.none c none) E (cc3__ktv_kernel i arg1 harg1 arg2 harg2 arg3 harg3 arg4 harg4) K := by
  simp only [cc3__ktv_kernel_eq_skeleton]; unfold cc3__ktv_kernel_skel
  unfold owns
  iintro ⟨⟨%f0, %hf0, H0⟩, ⟨%f1, %hf1, H1⟩, ⟨%d3, %f3, -, H3⟩, ⟨%f4, %hf4, H4⟩, Hk⟩
  subst hf0; subst hf1; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    sl_unfold_words
    refine (read_store_whole (Val := Elt F) arg3.view f3 _ _).trans ?_
    rw [readCov_whole, readAt_whole, readAt_whole, readAt_whole]
  iexists _; isplitr
  swap; · iexact H4
  ipureintro
  sl_unfold_words
  refine (read_store_whole (Val := Elt F) arg4.view f4 _ _).trans ?_
  rw [readAt_whole, readAt_whole, readAt_whole]

/-! ## What the scratch holds after each point -/

/-- The scratch after point `n`: after the first point the first block's product over the cleared contents, after each
    later point that point's block product added to what the point before left. -/
def acc3 (c : Dev nD) : (n : ℕ) → n < cfg3.N → Vec F S1024x1024 .f32
  | 0, h => k3_pay2 (iblk3 V c 0 ⟨0, h⟩) (iblk3 V c 1 ⟨0, h⟩) k3_pay1
  | n + 1, h => k3_pay2 (iblk3 V c 0 ⟨n + 1, h⟩) (iblk3 V c 1 ⟨n + 1, h⟩) (acc3 c n (Nat.lt_of_succ_lt h))

theorem acc3_zero (c : Dev nD) (t : Fin cfg3.N) (hz : t.val = 0) :
    acc3 V c t.val t.isLt = k3_pay2 (iblk3 V c 0 t) (iblk3 V c 1 t) k3_pay1 := by
  obtain ⟨n, hn⟩ := t; dsimp only at hz; subst hz; rfl

theorem acc3_pos (c : Dev nD) (t : Fin cfg3.N) (hz : t.val ≠ 0) :
    acc3 V c t.val t.isLt = k3_pay2 (iblk3 V c 0 t) (iblk3 V c 1 t) (acc3 V c (t.val - 1) (Nat.lt_of_le_of_lt (Nat.sub_le _ _) t.isLt)) := by
  obtain ⟨n, hn⟩ := t
  cases n with
  | zero => exact absurd rfl hz
  | succ n => rfl

/-! ## The invariant between points -/

/-- The scoped buffers that are neither a staging buffer of this region nor its scratch, each at some contents. -/
abbrev But3 (c : Dev nD) : sProp 𝕄 :=
  Pipeline.scopedRestBut (Ix := Unit) (Name := ℕ) (U := UR sig nD τ) (Lvl := ℕ) (Val := Elt F) spec3 c [cc3_scratch0]

/-- What the region is entered with — the scoped rest and the generator register — with the scratch split out. -/
theorem PhiA3_eq (c : Dev nD) :
    (Pipeline.ΦA spec3 c : sProp 𝕄)
      = iprop(((∃ d, owns (c : Thread nD τ) scM3 fullShare d) ∗ But3 c) ∗ ∃ r, prngReg c r) := by
  unfold Pipeline.ΦA
  rw [Pipeline.scopedRest_split_of_list spec3 c [cc3_scratch0] (by decide) (by decide)]
  simp only [scM3, owns_whole]
  rfl

/-- The invariant before position `n`: before the first point what the region is entered with (the scratch at
    anything); afterwards the scratch at what the point before left, the other scoped buffers at anything, the
    generator register at some state. -/
def PhiS3 (c : Dev nD) : (n : ℕ) → n ≤ cfg3.N → sProp 𝕄
  | 0, _ => Pipeline.ΦA spec3 c
  | n + 1, hn => iprop((owns (c : Thread nD τ) scM3 fullShare (acc3 V c n hn) ∗ But3 c) ∗ ∃ r, prngReg c r)

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop((owns (c : Thread nD τ) scM3 fullShare (acc3 V c n hn) ∗ But3 c) ∗ ∃ r, prngReg c r) := rfl

theorem PhiS3_pos (c : Dev nD) (n : ℕ) (h : n ≤ cfg3.N) (hz : n ≠ 0) :
    PhiS3 V c n h = iprop((owns (c : Thread nD τ) scM3 fullShare (acc3 V c (n - 1) (by omega)) ∗ But3 c) ∗ ∃ r, prngReg c r) := by
  cases n with
  | zero => exact absurd rfl hz
  | succ n => rfl

/-! ## The proof data -/

/-- The proof data of pipeline 3 on core `c`: the arrays as the region finds them; after the body at a point the
    inputs' buffers at their blocks and the output's at the scratch rounded (read only at the last point, the one
    point that stores it and writes it back); the invariant above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k3_pay3 (acc3 V c t.val t.isLt)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem owed3 (c : Dev nD) (t : Fin (cfg3.N + 1)) : (dat3 V c).owed t = 0 := rfl
theorem q3 (c : Dev nD) (w : Fin cfg3.W) : (dat3 V c).q w = fullShare := rfl

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = k3_pay3 (acc3 V c t.val t.isLt) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4000000 in
/-- The body at any point: the inputs' memrefs hold their blocks; the point is the first, the last or a middle one,
    and that case's triple applies — the invariant hands over the scratch at what the point before left (at anything
    at the first point) and takes it back at this point's contents; the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 8 := lt_of_lt_of_eq t.isLt (show cfg3.N = 8 from N_3)
  rw [show (dat3 V c).leavesExact 0 t = owns (c : Thread nD τ) (st3_0 t) fullShare ((dat3 V c).after 0 t) from rfl, after3_0,
    show (dat3 V c).leavesExact 1 t = owns (c : Thread nD τ) (st3_1 t) fullShare ((dat3 V c).after 1 t) from rfl, after3_1]
  by_cases h0 : t.val % 8 = 0
  · have h7 : ¬ t.val % 8 = 7 := by omega
    have hz : t.val = 0 := by omega
    rw [Dat.leavesExact_idle (dat3 V c) 2 t (idle3_2 t (fun h => h7 ((hcondLast3 t).mp h))) (noFlush3_2 t (fun h => h7 ((hcondLast3 t).mp h)))]
    rw [acc3_zero V c t hz, PhiS3_castSucc V c t, PhiS3_zero V c _ _ hz, PhiA3_eq]
    iintro ⟨⟨⟨HS, Hb⟩, Hg⟩, Ho, ⟨%d0, H0⟩, ⟨%d1, H1⟩, ⟨%d2, H2⟩⟩
    iapply (runFirst3 c Set.univ (grid3.coords t) _ _ _ _ _ _ _ _ ((hcondFirst3 t).mpr h0) (fun h => h7 ((hcondLast3 t).mp h)) (iblk3 V c 0 t) (iblk3 V c 1 t) ((dat3 V c).before 2 t d2) _)
    isplitl [H0]; · iexact H0
    isplitl [H1]; · iexact H1
    isplitl [H2]; · iexact H2
    isplitl [HS]; · iexact HS
    iintro ⟨H0, H1, H2, HS⟩
    isplitl [HS Hb Hg]
    · isplitl [HS Hb]
      · isplitl [HS]; · iexact HS
        iexact Hb
      iexact Hg
    isplitl [Ho]; · iexact Ho
    isplitl [H0]; · iexact H0
    isplitl [H1]; · iexact H1
    iexists d2; iexact H2
  · have hz : t.val ≠ 0 := by omega
    by_cases h7 : t.val % 8 = 7
    · rw [show (dat3 V c).leavesExact 2 t = owns (c : Thread nD τ) (st3_2 t) fullShare ((dat3 V c).after 2 t) from by
        unfold Dat.leavesExact; rw [live3_2 t ((hcondLast3 t).mpr h7)], after3_2]
      rw [acc3_pos V c t hz, PhiS3_castSucc V c t, PhiS3_pos V c _ _ hz]
      iintro ⟨⟨⟨HS, Hb⟩, Hg⟩, Ho, ⟨%d0, H0⟩, ⟨%d1, H1⟩, ⟨%d2, H2⟩⟩
      iapply (runLast3 c Set.univ (grid3.coords t) _ _ _ _ _ _ _ _ (fun h => h0 ((hcondFirst3 t).mp h)) ((hcondLast3 t).mpr h7) (iblk3 V c 0 t) (iblk3 V c 1 t) _ _)
      isplitl [H0]; · iexact H0
      isplitl [H1]; · iexact H1
      isplitl [H2]; · iexists _; iexact H2
      isplitl [HS]; · iexact HS
      iintro ⟨H0, H1, H2, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      iexact H2
    · rw [Dat.leavesExact_idle (dat3 V c) 2 t (idle3_2 t (fun h => h7 ((hcondLast3 t).mp h))) (noFlush3_2 t (fun h => h7 ((hcondLast3 t).mp h)))]
      rw [acc3_pos V c t hz, PhiS3_castSucc V c t, PhiS3_pos V c _ _ hz]
      iintro ⟨⟨⟨HS, Hb⟩, Hg⟩, Ho, ⟨%d0, H0⟩, ⟨%d1, H1⟩, ⟨%d2, H2⟩⟩
      iapply (runMid3 c Set.univ (grid3.coords t) _ _ _ _ _ _ _ _ (fun h => h0 ((hcondFirst3 t).mp h)) (fun h => h7 ((hcondLast3 t).mp h)) (iblk3 V c 0 t) (iblk3 V c 1 t) ((dat3 V c).before 2 t d2) _ _)
      isplitl [H0]; · iexact H0
      isplitl [H1]; · iexact H1
      isplitl [H2]; · iexact H2
      isplitl [HS]; · iexact HS
      iintro ⟨H0, H1, H2, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      iexists d2; iexact H2

/-- The body obligation at every point. -/
theorem body_obligation3 (c : Dev nD) : BodyObligation (dat3 (F := F) V c) (defs₀ (F := F)) Variants.none () Set.univ := fun t => by
  rw [bigSep_W3, bigSep_W3]
  exact sound_body3 V c t

/-- What the region is entered with is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives it back, the scratch's contents forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 8 := N_3; omega), PhiA3_eq]
  iintro ⟨⟨HS, Hb⟩, Hg⟩
  isplitl [HS Hb]
  · isplitl [HS]; · iexists _; iexact HS
    iexact Hb
  iexact Hg

end Cert.KernelIdeal.Hand

end
-- ==== Proof.KI.Reg4.lean ====
/-
  Region 4 of @main — one matrix product per grid point, a block of 1024 rows of the left operand against the whole
  right operand — as the pipeline's proof data: what each window's staging buffer holds after the body at a point
  (the inputs their blocks, the output the body's one store over them), the body's triple on whole staging memrefs,
  and the obligation at every point. Stated at a parameter `V`, the core's buffer contents when the region is entered.
-/
import proofs.«131888_j68736656605705_1_alg».proof.Proof.Gen.KernelIdeal.Launch
import proofs.«131888_j68736656605705_1_alg».proof.Proof.Gen.KernelIdeal.Skeleton
import proofs.«131888_j68736656605705_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The left operand's staging buffer holds the point's block of rows, whether fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The right operand's staging buffer holds the whole right operand at every point: it is fetched once, at the first
    point, and its block index never moves. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The one rectangle the body reads and writes through: the whole 1024 × 1024 block. -/
abbrev rw4 : Rect S1024x1024 := Rect.unit (s := S1024x1024) ![0, 0] S1024x1024.size inb_S1024x1024_S1024x1024_0_0

/-- The output's staging buffer after the body: the product of the two input blocks, stored whole. -/
def out4_2 (x0 : Vec F S1024x1024 .bf16) (x1 : Vec F S1024x1024 .bf16) : Vec F S1024x1024 .f32 :=
  View.canon [⟨rw4, k4_pay1 (View.ld x0 rw4) (View.ld x1 rw4)⟩]

/-- The one store covers the buffer. -/
theorem cover4_2 (p0 : Vec F S1024x1024 .f32) (y : S1024x1024.Idx) :
    ∃ pc ∈ ([⟨rw4, p0⟩] : List (View.Piece (Elt F) S1024x1024 .f32)), y ∈ pc.1.set :=
  View.cover_of_tiled [⟨rw4, p0⟩] S1024x1024.size (by rfl) y

set_option maxHeartbeats 1000000 in
/-- The body on whole staging memrefs: the inputs' at contents `x0`, `x1` and the output's at anything; it ends with
    the inputs as they were and the output at `out4_2 x0 x1`. -/
theorem sound_kernel4 (c : Dev nD) (E : Set ℕ) (i : grid4.Coords) (arg1 : Memref sig .tc .vmem S1024x1024 .bf16) (harg1 : arg1.IsWhole)
    (arg2 : Memref sig .tc .vmem S1024x1024 .bf16) (harg2 : arg2.IsWhole) (arg3 : Memref sig .tc .vmem S1024x1024 .f32) (harg3 : arg3.IsWhole)
    (x0 : Vec F S1024x1024 .bf16) (x1 : Vec F S1024x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__qm_kernel i arg1 harg1 arg2 harg2 arg3 harg3) K := by
  simp only [cc4__qm_kernel_eq_skeleton]; unfold cc4__qm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-- The proof data of pipeline 4 on core `c`: the arrays as the region finds them; after the body at a point the
    inputs' buffers at their blocks and the output's at their product; the invariant the scoped rest and the generator
    register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so the body's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Run.lean ====
/-
  The run of @main: five kernel regions in a row, no host operation between them. The buffers' contents at each
  boundary are a fold from the launch memory — a region's arrays at what its write-backs leave, every other buffer
  as it was —; every weakly fair execution terminates with every unscoped buffer at the last boundary's contents.
  Read at the four arguments, which no region writes, that is the frame; read at the result, it is what region 4's
  write-backs leave.
-/
import proofs.«131888_j68736656605705_1_alg».proof.Proof.KI.Reg0
import proofs.«131888_j68736656605705_1_alg».proof.Proof.KI.Reg1
import proofs.«131888_j68736656605705_1_alg».proof.Proof.KI.Reg2
import proofs.«131888_j68736656605705_1_alg».proof.Proof.KI.Reg3
import proofs.«131888_j68736656605705_1_alg».proof.Proof.KI.Reg4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m ((c : Dev nD), b)
/-- The same read at the TensorCore's references (what region 0's proof data take). -/
abbrev V0 : (c : Dev nD) → (b : Ref sig .tc) → Buf (Elt F) ((c : Thread nD τ).loc b) := fun c b => W0 m c b

/-- After region 0: its arrays at what its write-backs leave, every other buffer as before it. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After region 1: its arrays at what its write-backs leave, every other buffer as before it. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After region 2: its arrays at what its write-backs leave, every other buffer as before it. -/
def W3 (c : Dev nD) : Valuation τ sig (Elt F) :=
  Pipeline.withArrays spec2 c (W2 m c) fun w => (dat2 (V2 m) c).arrAt w cfg2.N
theorem W3_arr (c : Dev nD) (w : Fin cfg2.W) :
    W3 m c (Proc.devRef .tc (Pipeline.arrRef spec2 w)) = (dat2 (V2 m) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m c (Proc.devRef .tc b) = W2 m c (Proc.devRef .tc b) := by
  unfold W3; exact Pipeline.withArrays_of_ne spec2 c _ _ b hb
/-- The same read at the TensorCore's references. -/
abbrev V3 : (c : Dev nD) → (b : Ref sig .tc) → Buf (Elt F) ((c : Thread nD τ).loc b) := fun c b => W3 m c b
theorem hF2 (c : Dev nD) (w : Fin cfg2.W) : (dat2 (V2 m) c).arrAt w cfg2.N = V3 m c (Pipeline.arrRef spec2 w) :=
  (W3_arr m c w).symm
theorem hrest2 (c : Dev nD) : ∀ b, b ∉ Finset.univ.image (Pipeline.arrRef spec2) → V3 m c b = V2 m c b :=
  fun b hb => W3_of_ne m c b fun w e => hb (Finset.mem_image.mpr ⟨w, Finset.mem_univ _, e⟩)

/-- After region 3: its arrays at what its write-backs leave, every other buffer as before it. -/
def W4 (c : Dev nD) : Valuation τ sig (Elt F) :=
  Pipeline.withArrays spec3 c (W3 m c) fun w => (dat3 (V3 m) c).arrAt w cfg3.N
theorem W4_arr (c : Dev nD) (w : Fin cfg3.W) :
    W4 m c (Proc.devRef .tc (Pipeline.arrRef spec3 w)) = (dat3 (V3 m) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m c (Proc.devRef .tc b) = W3 m c (Proc.devRef .tc b) := by
  unfold W4; exact Pipeline.withArrays_of_ne spec3 c _ _ b hb
/-- The same read at the TensorCore's references. -/
abbrev V4 : (c : Dev nD) → (b : Ref sig .tc) → Buf (Elt F) ((c : Thread nD τ).loc b) := fun c b => W4 m c b
theorem hF3 (c : Dev nD) (w : Fin cfg3.W) : (dat3 (V3 m) c).arrAt w cfg3.N = V4 m c (Pipeline.arrRef spec3 w) :=
  (W4_arr m c w).symm
theorem hrest3 (c : Dev nD) : ∀ b, b ∉ Finset.univ.image (Pipeline.arrRef spec3) → V4 m c b = V3 m c b :=
  fun b hb => W4_of_ne m c b fun w e => hb (Finset.mem_image.mpr ⟨w, Finset.mem_univ _, e⟩)

/-- After region 4: its arrays at what its write-backs leave, every other buffer as before it. -/
def W5 (c : Dev nD) : Valuation τ sig (Elt F) :=
  Pipeline.withArrays spec4 c (W4 m c) fun w => (dat4 (V4 m) c).arrAt w cfg4.N
theorem W5_arr (c : Dev nD) (w : Fin cfg4.W) :
    W5 m c (Proc.devRef .tc (Pipeline.arrRef spec4 w)) = (dat4 (V4 m) c).arrAt w cfg4.N := by
  unfold W5; exact Pipeline.withArrays_arr spec4 launch4.win.arr_inj c _ _ w
theorem W5_of_ne (c : Dev nD) (b : Ref sig .tc) (hb : ∀ w, Pipeline.arrRef spec4 w ≠ b) :
    W5 m c (Proc.devRef .tc b) = W4 m c (Proc.devRef .tc b) := by
  unfold W5; exact Pipeline.withArrays_of_ne spec4 c _ _ b hb
/-- The same read at the TensorCore's references. -/
abbrev V5 : (c : Dev nD) → (b : Ref sig .tc) → Buf (Elt F) ((c : Thread nD τ).loc b) := fun c b => W5 m c b
theorem hF4 (c : Dev nD) (w : Fin cfg4.W) : (dat4 (V4 m) c).arrAt w cfg4.N = V5 m c (Pipeline.arrRef spec4 w) :=
  (W5_arr m c w).symm
theorem hrest4 (c : Dev nD) : ∀ b, b ∉ Finset.univ.image (Pipeline.arrRef spec4) → V5 m c b = V4 m c b :=
  fun b hb => W5_of_ne m c b fun w e => hb (Finset.mem_image.mpr ⟨w, Finset.mem_univ _, e⟩)

/-! ## No region writes an argument -/

theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of_ne m c main_arg0 (by decide)
    _ = W3 m c (Proc.devRef .tc main_arg0) := W4_of_ne m c main_arg0 (by decide)
    _ = W2 m c (Proc.devRef .tc main_arg0) := (W3_arr m c 0).trans (((dat2 (V2 m) c).arrAt_in 0 rfl _).trans (A_eq2 (V2 m) c 0))
    _ = W1 m c (Proc.devRef .tc main_arg0) := (W2_arr m c 0).trans (((dat1 (V1 m) c).arrAt_in 0 rfl _).trans (A_eq1 (V1 m) c 0))
    _ = W0 m c (Proc.devRef .tc main_arg0) := (W1_arr m c 0).trans (((dat0 (V0 m) c).arrAt_in 0 rfl _).trans (A_eq0 (V0 m) c 0))
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of_ne m c main_arg1 (by decide)
    _ = W3 m c (Proc.devRef .tc main_arg1) := W4_of_ne m c main_arg1 (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := (W1_arr m c 1).trans (((dat0 (V0 m) c).arrAt_in 1 rfl _).trans (A_eq0 (V0 m) c 1))
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of_ne m c main_arg2 (by decide)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := (W2_arr m c 1).trans (((dat1 (V1 m) c).arrAt_in 1 rfl _).trans (A_eq1 (V1 m) c 1))
    _ = W0 m c (Proc.devRef .tc main_arg2) := W1_of_ne m c main_arg2 (by decide)
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of_ne m c main_arg3 (by decide)
    _ = W3 m c (Proc.devRef .tc main_arg3) := W4_of_ne m c main_arg3 (by decide)
    _ = W2 m c (Proc.devRef .tc main_arg3) := (W3_arr m c 1).trans (((dat2 (V2 m) c).arrAt_in 1 rfl _).trans (A_eq2 (V2 m) c 1))
    _ = W1 m c (Proc.devRef .tc main_arg3) := W2_of_ne m c main_arg3 (by decide)
    _ = W0 m c (Proc.devRef .tc main_arg3) := W1_of_ne m c main_arg3 (by decide)
    _ = m ((c : Thread nD τ).loc main_arg3) := rfl

/-! ## What each region finds in the arrays it reads -/

theorem V1_main_arg0 (c : Dev nD) : V1 m c main_arg0 = m ((c : Thread nD τ).loc main_arg0) :=
  (W1_arr m c 0).trans (((dat0 (V0 m) c).arrAt_in 0 rfl _).trans (A_eq0 (V0 m) c 0))
theorem V1_main_arg2 (c : Dev nD) : V1 m c main_arg2 = m ((c : Thread nD τ).loc main_arg2) := W1_of_ne m c main_arg2 (by decide)
theorem V2_main_arg0 (c : Dev nD) : V2 m c main_arg0 = m ((c : Thread nD τ).loc main_arg0) :=
  ((W2_arr m c 0).trans (((dat1 (V1 m) c).arrAt_in 0 rfl _).trans (A_eq1 (V1 m) c 0))).trans (V1_main_arg0 m c)
theorem V2_main_arg3 (c : Dev nD) : V2 m c main_arg3 = m ((c : Thread nD τ).loc main_arg3) :=
  (W2_of_ne m c main_arg3 (by decide)).trans (W1_of_ne m c main_arg3 (by decide))
/-- Region 3 reads k and v as regions 1 and 2 left them. -/
theorem V3_main_v1 (c : Dev nD) : V3 m c main_v1 = (dat1 (V1 m) c).arrAt 2 cfg1.N :=
  (W3_of_ne m c main_v1 (by decide)).trans (W2_arr m c 2)
theorem V3_main_v2 (c : Dev nD) : V3 m c main_v2 = (dat2 (V2 m) c).arrAt 2 cfg2.N := W3_arr m c 2
/-- Region 4 reads q as region 0 left it and kᵀ·v as region 3 left it. -/
theorem V4_main_v0 (c : Dev nD) : V4 m c main_v0 = (dat0 (V0 m) c).arrAt 2 cfg0.N :=
  (W4_of_ne m c main_v0 (by decide)).trans ((W3_of_ne m c main_v0 (by decide)).trans ((W2_of_ne m c main_v0 (by decide)).trans (W1_arr m c 2)))
theorem V4_main_v3 (c : Dev nD) : V4 m c main_v3 = (dat3 (V3 m) c).arrAt 2 cfg3.N := W4_arr m c 2
/-- The result is what region 4's write-backs leave. -/
theorem W5_main_v4 (c : Dev nD) : W5 m c (Proc.devRef .tc main_v4) = (dat4 (V4 m) c).arrAt 2 cfg4.N := W5_arr m c 2

/-! ## The proof data family and the thread state -/

/-- No pallas_call has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V2 m) c
  | ⟨3, _⟩ => fun c => dat3 (V3 m) c
  | ⟨4, _⟩ => fun c => dat4 (V4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every region: the generator register at some state, and nothing owed. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- REGION 0 over the thread state: entered with every unscoped buffer at the contents before it, left with them at
    the contents after it — its windows' arrays split out of the unscoped buffers on entry and put back on exit at
    what the write-backs leave; the generator register into the region's invariant and out; nothing owed; no semaphore
    of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered with every unscoped buffer at the contents before it, left with them at
    the contents after it — its windows' arrays split out of the unscoped buffers on entry and put back on exit at
    what the write-backs leave; the generator register into the region's invariant and out; nothing owed; no semaphore
    of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered with every unscoped buffer at the contents before it, left with them at
    the contents after it — its windows' arrays split out of the unscoped buffers on entry and put back on exit at
    what the write-backs leave; the generator register into the region's invariant and out; nothing owed; no semaphore
    of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V2 m) c).loose
  hwaits := Pipeline.hwaits_of_owed_zero _ _ _ _ L lv 2 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec2 c (V2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V2 m c) (V3 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered with every unscoped buffer at the contents before it, left with them at
    the contents after it — its windows' arrays split out of the unscoped buffers on entry and put back on exit at
    what the write-backs leave; the generator register into the region's invariant and out; nothing owed; no semaphore
    of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V3 m) c).loose
  hwaits := Pipeline.hwaits_of_owed_zero _ _ _ _ L lv 3 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec3 c (V3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    have h : (Pipeline.ΦA spec3 c : sProp 𝕄)
        ⊢ iprop((∃ r, prngReg c r) ∗ BI.emp ∗ Pipeline.scopedRest (Pipeline.pin (pcfgs (F := F)) adm 3).spec c) := by
      unfold Pipeline.ΦA
      iintro ⟨Hr, Hp⟩
      isplitl [Hp]; · iexact Hp
      isplitr; · iempintro
      iexact Hr
    exact (hout3 (V3 m) c).trans h
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V3 m c) (V4 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered with every unscoped buffer at the contents before it, left with them at
    the contents after it — its windows' arrays split out of the unscoped buffers on entry and put back on exit at
    what the write-backs leave; the generator register into the region's invariant and out; nothing owed; no semaphore
    of the kernel's own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V4 m) c).loose
  hwaits := Pipeline.hwaits_of_owed_zero _ _ _ _ L lv 4 fun _ _ => rfl
  pre c := iprop(StableHlo.held (c : Thread nD τ) (Pipeline.ucRefs τ sig) (W4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none]
    rw [show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V4 m c) (V5 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m), .region (reg2 m), .region (reg3 m), .region (reg4 m) ]

theorem main_run (c : Dev nD) : main (F := F) c = Pipeline.Seg.run (segs m) := (main_chain c).trans (by chain_rfl)

variable (ρ : Dev nD → PrngReg)

set_option backward.isDefEq.respectTransparency.types false in
/-- From any memory with zero counters every weakly fair execution of @main terminates, nothing faulting, and the
    final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_all m ρ)

/-- THE RESULT: it ends at what region 4's write-backs leave, beside the frame. -/
theorem run_value : θ_run defs (onTc (τ := τ) (main (F := F))) ⟨m, fun _ => 0, ρ⟩ (fun r => ∀ c : Dev nD,
      r.2.mem ((c.tc : Thread nD τ).loc main_v4) = (dat4 (V4 m) c).arrAt 2 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v4 (by decide))).trans (W5_main_v4 m c),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c)⟩) (run_all m ρ)

end Cert.KernelIdeal.Hand

end
-- ==== Proof.Val.Spec.lean ====
/-
  The two programs' results as functions of the four argument arrays, over the extended reals.
  With q = x·WQ, k = x·WK, v = x·WV (each 8192 × 1024), the kernel computes q·(kᵀ·v), the 1024 × 1024 matrix kᵀ·v
  first; the reference computes (q·kᵀ)·v through the 8192 × 8192 matrix q·kᵀ. Entry (i, j) of the first is
  ∑ₐ q(i,a) · (∑ₛ k(s,a) · v(s,j)), of the second ∑ₛ (∑ₐ q(i,a) · k(s,a)) · v(s,j).
-/
import Idealize.ShloMosaic.Lib.ValueIdx
import Idealize.ShloMosaic.PureOps.Ideal

noncomputable section

namespace Cert.Spec

open Idealize.ShloMosaic Idealize.ShloMosaic.ValueIdx

/-- The shape of x, q, k, v and the result: 8192 rows of 1024. -/
abbrev Sx : Shape := ⟨2, ![8192, 1024]⟩
/-- The shape of the three weight matrices and of kᵀ·v. -/
abbrev Sw : Shape := ⟨2, ![1024, 1024]⟩

/-- Rows of `l` against columns of `w`: entry (i, a) is ∑ₖ l(i,k) · w(k,a). -/
def proj (l : Sx.Idx → EReal) (w : Sw.Idx → EReal) : Sx.Idx → EReal :=
  fun i => ∑ k : Fin 1024, l (ix2 (⟨(i 0).val, (i 0).isLt⟩ : Fin 8192) k) * w (ix2 k (⟨(i 1).val, (i 1).isLt⟩ : Fin 1024))

theorem proj_apply (l : Sx.Idx → EReal) (w : Sw.Idx → EReal) (p : Fin 8192) (a : Fin 1024) :
    proj l w (ix2 p a) = ∑ k : Fin 1024, l (ix2 p k) * w (ix2 k a) := rfl

/-- Columns of `k` against columns of `v`, summed over all 8192 rows: entry (a, j) is ∑ₛ k(s,a) · v(s,j). -/
def ktv (k v : Sx.Idx → EReal) : Sw.Idx → EReal :=
  fun i => ∑ s : Fin 8192, k (ix2 s (⟨(i 0).val, (i 0).isLt⟩ : Fin 1024)) * v (ix2 s (⟨(i 1).val, (i 1).isLt⟩ : Fin 1024))

theorem ktv_apply (k v : Sx.Idx → EReal) (a j : Fin 1024) :
    ktv k v (ix2 a j) = ∑ s : Fin 8192, k (ix2 s a) * v (ix2 s j) := rfl

/-- What the kernel leaves in its result: q · (kᵀ · v). -/
def Gker (x : Sx.Idx → EReal) (wq wk wv : Sw.Idx → EReal) : Sx.Idx → EReal :=
  proj (proj x wq) (ktv (proj x wk) (proj x wv))

/-- What the reference leaves in its result: (q · kᵀ) · v. -/
def Gref (x : Sx.Idx → EReal) (wq wk wv : Sw.Idx → EReal) : Sx.Idx → EReal :=
  fun i => ∑ s : Fin 8192,
    (∑ a : Fin 1024, proj x wq (ix2 (⟨(i 0).val, (i 0).isLt⟩ : Fin 8192) a) * proj x wk (ix2 s a))
      * proj x wv (ix2 s (⟨(i 1).val, (i 1).isLt⟩ : Fin 1024))

/-- Every entry is a real number (neither infinity). -/
def AllReal {S : Shape} (f : S.Idx → EReal) : Prop := ∀ i, ∃ r : ℝ, f i = (r : EReal)

end Cert.Spec

end
-- ==== Proof.LibPlainDot.lean ====
/-
  A plain matrix product `[M, K] × [K, N] → [M, N]` — the left operand's columns contracted with the right operand's
  rows, no batch axis — read at the output entry `(p, q)` at the ideal values: the sum over `k : Fin K` of
  `l (p, k) * r (k, q)`. The device's `matmul` into the zero accumulator and the host's `dot_general` are both
  this sum, whatever record spells the dimension numbers, as long as it is the plain one (`hd`, which a printed
  record meets by `rfl`); and nothing depends on the sizes, so one statement serves a block of rows and the
  whole array alike.
  Beside it: a sum over `Fin (a + b)` of a function that reads its first `a` positions from one family and the
  rest from another is the two families' sums — what a product with two column blocks joined side by side is.
-/
import Idealize.ShloMosaic.Lib.ValueIdx
import Idealize.ShloMosaic.PureOps.Ideal.Laws
import Mathlib.Algebra.BigOperators.Fin

namespace Cert.PlainDot

open Idealize.ShloMosaic Idealize.ShloMosaic.ValueIdx

variable {M K N : ℕ}

/-- The left operand index of the plain product at output `(p, q)` and contraction position `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ =>
    show ((DotDims.plain M K N).lhsIdx (ix2 p q) _ 0).val = p.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := 1) rfl (ix2 p q) _).trans hk

/-- The right operand index is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of the plain product, re-indexed by the one contracted coordinate. -/
theorem plain_sum {β : Type*} [AddCommMonoid β] (f : (⟨2, ![M, K]⟩ : Shape).Idx → (⟨2, ![K, N]⟩ : Shape).Idx → β)
    (p : Fin M) (q : Fin N) :
    ∑ k : (DotDims.plain M K N).contr.Idx,
        f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  refine Finset.sum_congr rfl fun k _ => ?_
  rw [plain_lhsIdx, plain_rhsIdx]

variable {φ₁ φ₂ : FTy}

/-- The device's matrix product into the zero accumulator, at `(p, q)`. -/
theorem matmul_zero_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  subst hd
  simp only [matmul]
  rw [Ideal.matmul_constant_zero_apply]
  exact plain_sum (fun a b => l a * r b) p q

/-- The host's `dot_general`, at `(p, q)`. -/
theorem dotGeneral_apply (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂)
    (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum (fun a b => l a * r b) p q

/-- A sum over `Fin (a + b)` of a function given piecewise — below `a` by `f`, from `a` on by `g` — is the sum of
    `f` plus the sum of `g`. -/
theorem sum_two_blocks {β : Type*} [AddCommMonoid β] {a b n : ℕ} (hn : n = a + b) (F : Fin n → β) (f : Fin a → β) (g : Fin b → β)
    (hf : ∀ k : Fin a, F ⟨k.val, by have := k.isLt; omega⟩ = f k)
    (hg : ∀ k : Fin b, F ⟨a + k.val, by have := k.isLt; omega⟩ = g k) :
    ∑ k : Fin n, F k = ∑ k : Fin a, f k + ∑ k : Fin b, g k := by
  subst hn
  rw [Fin.sum_univ_add]
  refine congrArg₂ (· + ·) (Finset.sum_congr rfl fun k _ => ?_) (Finset.sum_congr rfl fun k _ => ?_)
  · exact hf k
  · exact hg k

end Cert.PlainDot
-- ==== Proof.Val.Proj0.lean ====
/-
  Region 0 of the kernel: the left operand x (8192 × 1024) against the whole weight matrix (1024 × 1024), one block of
  1024 rows per grid point. At the ideal values each point writes back its block of rows of the product x·W, the eight
  blocks tile the 8192 rows, and so the region leaves the whole product: entry (i, a) is ∑ₖ x(i,k) · W(k,a).
-/
import proofs.«131888_j68736656605705_1_alg».proof.Proof.KI.Reg0
import proofs.«131888_j68736656605705_1_alg».proof.Proof.Val.Spec
import proofs.«131888_j68736656605705_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-- The block's rectangle starts at the origin. -/
theorem hz0 : (![0, 0] : Fin 2 → Nat) = fun _ => 0 := funext fun a => by fin_cases a <;> rfl

/-- The body's payload at entry (p, q) of the block: the two format changes are the identity on extended reals, and
    the matrix product into the zero accumulator is the sum over the contracted coordinate. -/
theorem pay0_apply (xl xr : Vec Ideal S1024x1024 .f32) (p q : Fin 1024) :
    (k0_pay1 xl xr (ix2 p q) : EReal) = ∑ k : Fin 1024, (xl (ix2 p k) : EReal) * (xr (ix2 k q) : EReal) := by
  unfold k0_pay1
  exact Cert.PlainDot.matmul_zero_apply _ rfl none _ _ p q

variable (V : (c : Dev nD) → (b : Ref sig .tc) → Buf (Elt Ideal) ((c : Thread nD τ).loc b))

/-- The printed index maps, decided over the grid: the left operand's block of rows moves with the output's, the
    weight's block never moves, and the output's row block at point t is block t. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 7
    ∧ win0_2.index t (1 : Fin 2) = 0 :=
  (by decide +kernel : ∀ t : Fin grid0.N, _)

/-- Every block of rows is some point's. -/
theorem idx_onto0 : ∀ (qrow : Fin 8), ∃ t : Fin cfg0.N, win0_2.index t = ![qrow.val, 0] :=
  (by decide +kernel : ∀ (qrow : Fin 8), ∃ t : Fin grid0.N, win0_2.index t = ![qrow.val, 0])

/-- One entry of a block of the product: when the left block's row p is row (i 0) of x, the right block is all of W,
    and the entry's column is (i 1), the payload at (p, q) is the product x·W at i. -/
theorem blockprod0 (X : Cert.Spec.Sx.Idx → EReal) (W : Cert.Spec.Sw.Idx → EReal) (xl xr : Vec Ideal S1024x1024 .f32)
    (y : S1024x1024.Idx) (i : Cert.Spec.Sx.Idx)
    (hl : ∀ k : Fin 1024, (xl (ix2 (y 0) k) : EReal) = X (ix2 (i 0) k))
    (hr : ∀ k : Fin 1024, (xr (ix2 k (y 1)) : EReal) = W (ix2 k (i 1))) :
    (k0_pay1 xl xr y : EReal) = Cert.Spec.proj X W i := by
  obtain ⟨p, q, rfl⟩ : ∃ (p q : Fin 1024), y = ix2 p q := ⟨y 0, y 1, eq_ix2 y⟩
  obtain ⟨r, a, rfl⟩ : ∃ (r : Fin 8192) (a : Fin 1024), i = ix2 r a := ⟨i 0, i 1, eq_ix2 i⟩
  rw [pay0_apply, Cert.Spec.proj_apply]
  exact Finset.sum_congr rfl fun k _ => congrArg₂ (· * ·) (hl k) (hr k)

/-- What point t writes back is block t of the product of the two argument arrays as the region finds them. -/
theorem flushed0_eq (c : Dev nD) (t : Fin cfg0.N) :
    (dat0 (F := Ideal) V c).flushed 2 t
      = ((cfg0.win 2).blk t).view.read (Elt Ideal) (Cert.Spec.proj (V c main_arg0) (V c main_arg1)) := by
  show (cfg0.win 2).cut (grid0.coords t) ((dat0 V c).after 2 t) = _
  rw [after0_2]
  unfold out0_2
  rw [View.canon_unit_zero hz0]
  simp only [View.ld_unit_zero (S := S1024x1024) hz0]
  obtain ⟨eA, eB, eC, eD, eE, eF⟩ := idx_facts0 t
  funext y
  show (k0_pay1 (iblk0 V c 0 t) (iblk0 V c 1 t) y : EReal) = Cert.Spec.proj (V c main_arg0) (V c main_arg1) (((cfg0.win 2).blk t).view.emb y)
  refine blockprod0 _ _ _ _ y _ ?_ ?_
  · intro k
    show V c main_arg0 (((cfg0.win 0).blk t).view.emb (ix2 (y 0) k)) = V c main_arg0 (ix2 (((cfg0.win 2).blk t).view.emb y 0) k)
    refine congrArg _ ?_
    funext a; apply Fin.ext
    match a with
    | ⟨0, _⟩ => show win0_0.index t (0 : Fin 2) * 1024 + 1 * (y 0).val = win0_2.index t (0 : Fin 2) * 1024 + 1 * (y 0).val; omega
    | ⟨1, _⟩ => show win0_0.index t (1 : Fin 2) * 1024 + 1 * k.val = k.val; omega
  · intro k
    show V c main_arg1 (((cfg0.win 1).blk t).view.emb (ix2 k (y 1))) = V c main_arg1 (ix2 k (((cfg0.win 2).blk t).view.emb y 1))
    refine congrArg _ ?_
    funext a; apply Fin.ext
    match a with
    | ⟨0, _⟩ => show win0_1.index t (0 : Fin 2) * 1024 + 1 * k.val = k.val; omega
    | ⟨1, _⟩ => show win0_1.index t (1 : Fin 2) * 1024 + 1 * (y 1).val = win0_2.index t (1 : Fin 2) * 1024 + 1 * (y 1).val; omega

/-- An index of the output array is in point t's block iff each coordinate is in the block's range on its axis. -/
theorem mem_blk0 (t : Fin cfg0.N) (i : S8192x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- The eight blocks of 1024 rows tile the 8192 rows: row r is in the block of point r / 1024. -/
theorem cover0 (i : S8192x1024.Idx) :
    ∃ t : Fin cfg0.N, (cfg0.win 2).flush t = true ∧ i ∈ ((cfg0.win 2).blk t).view.set := by
  have hrow : (i 0).val < 8192 := (i 0).isLt
  have hcol : (i 1).val < 1024 := (i 1).isLt
  obtain ⟨t, ht⟩ := idx_onto0 ⟨(i 0).val / 1024, by omega⟩
  have qrow : win0_2.index t (0 : Fin 2) = (i 0).val / 1024 := congrFun ht 0
  have qcol : win0_2.index t (1 : Fin 2) = 0 := congrFun ht 1
  refine ⟨t, flush0_2 t, ?_⟩
  rw [mem_blk0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The output array after the region: the product of the two argument arrays as the region finds them. -/
theorem final0 (c : Dev nD) :
    (dat0 (F := Ideal) V c).arrAt 2 cfg0.N = Cert.Spec.proj (V c main_arg0) (V c main_arg1) :=
  (dat0 (F := Ideal) V c).arrAt_eq_of_cover 2 (Cert.Spec.proj (V c main_arg0) (V c main_arg1))
    (fun t _ => flushed0_eq V c t) cover0

end Cert.KernelIdeal.HandVal

end
-- ==== Proof.Val.Proj1.lean ====
/-
  Region 1 of the kernel: the left operand x (8192 × 1024) against the whole weight matrix (1024 × 1024), one block of
  1024 rows per grid point. At the ideal values each point writes back its block of rows of the product x·W, the eight
  blocks tile the 8192 rows, and so the region leaves the whole product: entry (i, a) is ∑ₖ x(i,k) · W(k,a).
-/
import proofs.«131888_j68736656605705_1_alg».proof.Proof.KI.Reg1
import proofs.«131888_j68736656605705_1_alg».proof.Proof.Val.Spec
import proofs.«131888_j68736656605705_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-- The block's rectangle starts at the origin. -/
theorem hz1 : (![0, 0] : Fin 2 → Nat) = fun _ => 0 := funext fun a => by fin_cases a <;> rfl

/-- The body's payload at entry (p, q) of the block: the two format changes are the identity on extended reals, and
    the matrix product into the zero accumulator is the sum over the contracted coordinate. -/
theorem pay1_apply (xl xr : Vec Ideal S1024x1024 .f32) (p q : Fin 1024) :
    (k1_pay1 xl xr (ix2 p q) : EReal) = ∑ k : Fin 1024, (xl (ix2 p k) : EReal) * (xr (ix2 k q) : EReal) := by
  unfold k1_pay1
  exact Cert.PlainDot.matmul_zero_apply _ rfl none _ _ p q

variable (V : (c : Dev nD) → (b : Ref sig .tc) → Buf (Elt Ideal) ((c : Thread nD τ).loc b))

/-- The printed index maps, decided over the grid: the left operand's block of rows moves with the output's, the
    weight's block never moves, and the output's row block at point t is block t. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (0 : Fin 2) ≤ 7
    ∧ win1_2.index t (1 : Fin 2) = 0 :=
  (by decide +kernel : ∀ t : Fin grid1.N, _)

/-- Every block of rows is some point's. -/
theorem idx_onto1 : ∀ (qrow : Fin 8), ∃ t : Fin cfg1.N, win1_2.index t = ![qrow.val, 0] :=
  (by decide +kernel : ∀ (qrow : Fin 8), ∃ t : Fin grid1.N, win1_2.index t = ![qrow.val, 0])

/-- One entry of a block of the product: when the left block's row p is row (i 0) of x, the right block is all of W,
    and the entry's column is (i 1), the payload at (p, q) is the product x·W at i. -/
theorem blockprod1 (X : Cert.Spec.Sx.Idx → EReal) (W : Cert.Spec.Sw.Idx → EReal) (xl xr : Vec Ideal S1024x1024 .f32)
    (y : S1024x1024.Idx) (i : Cert.Spec.Sx.Idx)
    (hl : ∀ k : Fin 1024, (xl (ix2 (y 0) k) : EReal) = X (ix2 (i 0) k))
    (hr : ∀ k : Fin 1024, (xr (ix2 k (y 1)) : EReal) = W (ix2 k (i 1))) :
    (k1_pay1 xl xr y : EReal) = Cert.Spec.proj X W i := by
  obtain ⟨p, q, rfl⟩ : ∃ (p q : Fin 1024), y = ix2 p q := ⟨y 0, y 1, eq_ix2 y⟩
  obtain ⟨r, a, rfl⟩ : ∃ (r : Fin 8192) (a : Fin 1024), i = ix2 r a := ⟨i 0, i 1, eq_ix2 i⟩
  rw [pay1_apply, Cert.Spec.proj_apply]
  exact Finset.sum_congr rfl fun k _ => congrArg₂ (· * ·) (hl k) (hr k)

/-- What point t writes back is block t of the product of the two argument arrays as the region finds them. -/
theorem flushed1_eq (c : Dev nD) (t : Fin cfg1.N) :
    (dat1 (F := Ideal) V c).flushed 2 t
      = ((cfg1.win 2).blk t).view.read (Elt Ideal) (Cert.Spec.proj (V c main_arg0) (V c main_arg2)) := by
  show (cfg1.win 2).cut (grid1.coords t) ((dat1 V c).after 2 t) = _
  rw [after1_2]
  unfold out1_2
  rw [View.canon_unit_zero hz1]
  simp only [View.ld_unit_zero (S := S1024x1024) hz1]
  obtain ⟨eA, eB, eC, eD, eE, eF⟩ := idx_facts1 t
  funext y
  show (k1_pay1 (iblk1 V c 0 t) (iblk1 V c 1 t) y : EReal) = Cert.Spec.proj (V c main_arg0) (V c main_arg2) (((cfg1.win 2).blk t).view.emb y)
  refine blockprod1 _ _ _ _ y _ ?_ ?_
  · intro k
    show V c main_arg0 (((cfg1.win 0).blk t).view.emb (ix2 (y 0) k)) = V c main_arg0 (ix2 (((cfg1.win 2).blk t).view.emb y 0) k)
    refine congrArg _ ?_
    funext a; apply Fin.ext
    match a with
    | ⟨0, _⟩ => show win1_0.index t (0 : Fin 2) * 1024 + 1 * (y 0).val = win1_2.index t (0 : Fin 2) * 1024 + 1 * (y 0).val; omega
    | ⟨1, _⟩ => show win1_0.index t (1 : Fin 2) * 1024 + 1 * k.val = k.val; omega
  · intro k
    show V c main_arg2 (((cfg1.win 1).blk t).view.emb (ix2 k (y 1))) = V c main_arg2 (ix2 k (((cfg1.win 2).blk t).view.emb y 1))
    refine congrArg _ ?_
    funext a; apply Fin.ext
    match a with
    | ⟨0, _⟩ => show win1_1.index t (0 : Fin 2) * 1024 + 1 * k.val = k.val; omega
    | ⟨1, _⟩ => show win1_1.index t (1 : Fin 2) * 1024 + 1 * (y 1).val = win1_2.index t (1 : Fin 2) * 1024 + 1 * (y 1).val; omega

/-- An index of the output array is in point t's block iff each coordinate is in the block's range on its axis. -/
theorem mem_blk1 (t : Fin cfg1.N) (i : S8192x1024.Idx) :
    i ∈ ((cfg1.win 2).blk t).view.set ↔ ∀ a : Fin 2, win1_2.index t a * S1024x1024.size a ≤ (i a).val ∧ (i a).val < win1_2.index t a * S1024x1024.size a + S1024x1024.size a := by
  show i ∈ ((View.whole main_v1).slice (win1_2.rect t)).set ↔ _
  rw [View.set_slice_whole, Rect.mem_set_unit]
  exact Iff.rfl

/-- The eight blocks of 1024 rows tile the 8192 rows: row r is in the block of point r / 1024. -/
theorem cover1 (i : S8192x1024.Idx) :
    ∃ t : Fin cfg1.N, (cfg1.win 2).flush t = true ∧ i ∈ ((cfg1.win 2).blk t).view.set := by
  have hrow : (i 0).val < 8192 := (i 0).isLt
  have hcol : (i 1).val < 1024 := (i 1).isLt
  obtain ⟨t, ht⟩ := idx_onto1 ⟨(i 0).val / 1024, by omega⟩
  have qrow : win1_2.index t (0 : Fin 2) = (i 0).val / 1024 := congrFun ht 0
  have qcol : win1_2.index t (1 : Fin 2) = 0 := congrFun ht 1
  refine ⟨t, flush1_2 t, ?_⟩
  rw [mem_blk1]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1024 ≤ (i 1).val ∧ (i 1).val < win1_2.index t (1 : Fin 2) * 1024 + 1024; omega

/-- The output array after the region: the product of the two argument arrays as the region finds them. -/
theorem final1 (c : Dev nD) :
    (dat1 (F := Ideal) V c).arrAt 2 cfg1.N = Cert.Spec.proj (V c main_arg0) (V c main_arg2) :=
  (dat1 (F := Ideal) V c).arrAt_eq_of_cover 2 (Cert.Spec.proj (V c main_arg0) (V c main_arg2))
    (fun t _ => flushed1_eq V c t) cover1

end Cert.KernelIdeal.HandVal

end
-- ==== Proof.Val.Proj2.lean ====
/-
  Region 2 of the kernel: the left operand x (8192 × 1024) against the whole weight matrix (1024 × 1024), one block of
  1024 rows per grid point. At the ideal values each point writes back its block of rows of the product x·W, the eight
  blocks tile the 8192 rows, and so the region leaves the whole product: entry (i, a) is ∑ₖ x(i,k) · W(k,a).
-/
import proofs.«131888_j68736656605705_1_alg».proof.Proof.KI.Reg2
import proofs.«131888_j68736656605705_1_alg».proof.Proof.Val.Spec
import proofs.«131888_j68736656605705_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-- The block's rectangle starts at the origin. -/
theorem hz2 : (![0, 0] : Fin 2 → Nat) = fun _ => 0 := funext fun a => by fin_cases a <;> rfl

/-- The body's payload at entry (p, q) of the block: the two format changes are the identity on extended reals, and
    the matrix product into the zero accumulator is the sum over the contracted coordinate. -/
theorem pay2_apply (xl xr : Vec Ideal S1024x1024 .f32) (p q : Fin 1024) :
    (k2_pay1 xl xr (ix2 p q) : EReal) = ∑ k : Fin 1024, (xl (ix2 p k) : EReal) * (xr (ix2 k q) : EReal) := by
  unfold k2_pay1
  exact Cert.PlainDot.matmul_zero_apply _ rfl none _ _ p q

variable (V : (c : Dev nD) → (b : Ref sig .tc) → Buf (Elt Ideal) ((c : Thread nD τ).loc b))

/-- The printed index maps, decided over the grid: the left operand's block of rows moves with the output's, the
    weight's block never moves, and the output's row block at point t is block t. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) ≤ 7
    ∧ win2_2.index t (1 : Fin 2) = 0 :=
  (by decide +kernel : ∀ t : Fin grid2.N, _)

/-- Every block of rows is some point's. -/
theorem idx_onto2 : ∀ (qrow : Fin 8), ∃ t : Fin cfg2.N, win2_2.index t = ![qrow.val, 0] :=
  (by decide +kernel : ∀ (qrow : Fin 8), ∃ t : Fin grid2.N, win2_2.index t = ![qrow.val, 0])

/-- One entry of a block of the product: when the left block's row p is row (i 0) of x, the right block is all of W,
    and the entry's column is (i 1), the payload at (p, q) is the product x·W at i. -/
theorem blockprod2 (X : Cert.Spec.Sx.Idx → EReal) (W : Cert.Spec.Sw.Idx → EReal) (xl xr : Vec Ideal S1024x1024 .f32)
    (y : S1024x1024.Idx) (i : Cert.Spec.Sx.Idx)
    (hl : ∀ k : Fin 1024, (xl (ix2 (y 0) k) : EReal) = X (ix2 (i 0) k))
    (hr : ∀ k : Fin 1024, (xr (ix2 k (y 1)) : EReal) = W (ix2 k (i 1))) :
    (k2_pay1 xl xr y : EReal) = Cert.Spec.proj X W i := by
  obtain ⟨p, q, rfl⟩ : ∃ (p q : Fin 1024), y = ix2 p q := ⟨y 0, y 1, eq_ix2 y⟩
  obtain ⟨r, a, rfl⟩ : ∃ (r : Fin 8192) (a : Fin 1024), i = ix2 r a := ⟨i 0, i 1, eq_ix2 i⟩
  rw [pay2_apply, Cert.Spec.proj_apply]
  exact Finset.sum_congr rfl fun k _ => congrArg₂ (· * ·) (hl k) (hr k)

/-- What point t writes back is block t of the product of the two argument arrays as the region finds them. -/
theorem flushed2_eq (c : Dev nD) (t : Fin cfg2.N) :
    (dat2 (F := Ideal) V c).flushed 2 t
      = ((cfg2.win 2).blk t).view.read (Elt Ideal) (Cert.Spec.proj (V c main_arg0) (V c main_arg3)) := by
  show (cfg2.win 2).cut (grid2.coords t) ((dat2 V c).after 2 t) = _
  rw [after2_2]
  unfold out2_2
  rw [View.canon_unit_zero hz2]
  simp only [View.ld_unit_zero (S := S1024x1024) hz2]
  obtain ⟨eA, eB, eC, eD, eE, eF⟩ := idx_facts2 t
  funext y
  show (k2_pay1 (iblk2 V c 0 t) (iblk2 V c 1 t) y : EReal) = Cert.Spec.proj (V c main_arg0) (V c main_arg3) (((cfg2.win 2).blk t).view.emb y)
  refine blockprod2 _ _ _ _ y _ ?_ ?_
  · intro k
    show V c main_arg0 (((cfg2.win 0).blk t).view.emb (ix2 (y 0) k)) = V c main_arg0 (ix2 (((cfg2.win 2).blk t).view.emb y 0) k)
    refine congrArg _ ?_
    funext a; apply Fin.ext
    match a with
    | ⟨0, _⟩ => show win2_0.index t (0 : Fin 2) * 1024 + 1 * (y 0).val = win2_2.index t (0 : Fin 2) * 1024 + 1 * (y 0).val; omega
    | ⟨1, _⟩ => show win2_0.index t (1 : Fin 2) * 1024 + 1 * k.val = k.val; omega
  · intro k
    show V c main_arg3 (((cfg2.win 1).blk t).view.emb (ix2 k (y 1))) = V c main_arg3 (ix2 k (((cfg2.win 2).blk t).view.emb y 1))
    refine congrArg _ ?_
    funext a; apply Fin.ext
    match a with
    | ⟨0, _⟩ => show win2_1.index t (0 : Fin 2) * 1024 + 1 * k.val = k.val; omega
    | ⟨1, _⟩ => show win2_1.index t (1 : Fin 2) * 1024 + 1 * (y 1).val = win2_2.index t (1 : Fin 2) * 1024 + 1 * (y 1).val; omega

/-- An index of the output array is in point t's block iff each coordinate is in the block's range on its axis. -/
theorem mem_blk2 (t : Fin cfg2.N) (i : S8192x1024.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v2).slice (win2_2.rect t)).set ↔ _
  rw [View.set_slice_whole, Rect.mem_set_unit]
  exact Iff.rfl

/-- The eight blocks of 1024 rows tile the 8192 rows: row r is in the block of point r / 1024. -/
theorem cover2 (i : S8192x1024.Idx) :
    ∃ t : Fin cfg2.N, (cfg2.win 2).flush t = true ∧ i ∈ ((cfg2.win 2).blk t).view.set := by
  have hrow : (i 0).val < 8192 := (i 0).isLt
  have hcol : (i 1).val < 1024 := (i 1).isLt
  obtain ⟨t, ht⟩ := idx_onto2 ⟨(i 0).val / 1024, by omega⟩
  have qrow : win2_2.index t (0 : Fin 2) = (i 0).val / 1024 := congrFun ht 0
  have qcol : win2_2.index t (1 : Fin 2) = 0 := congrFun ht 1
  refine ⟨t, flush2_2 t, ?_⟩
  rw [mem_blk2]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 1024 ≤ (i 1).val ∧ (i 1).val < win2_2.index t (1 : Fin 2) * 1024 + 1024; omega

/-- The output array after the region: the product of the two argument arrays as the region finds them. -/
theorem final2 (c : Dev nD) :
    (dat2 (F := Ideal) V c).arrAt 2 cfg2.N = Cert.Spec.proj (V c main_arg0) (V c main_arg3) :=
  (dat2 (F := Ideal) V c).arrAt_eq_of_cover 2 (Cert.Spec.proj (V c main_arg0) (V c main_arg3))
    (fun t _ => flushed2_eq V c t) cover2

end Cert.KernelIdeal.HandVal

end
-- ==== Proof.Val.Ktv3.lean ====
/-
  Region 3 of the kernel: kᵀ·v, the 1024 × 1024 matrix whose entry (a, j) is ∑ₛ k(s,a) · v(s,j) over all 8192 rows s,
  accumulated 1024 rows at a time over the grid's eight points in a scratch that the first point clears; the last point
  stores the scratch, format-changed, as the output block, which is the whole output array. At the ideal values the
  scratch after point n is the sum over the first 1024·(n+1) rows, so after the last point it is the whole sum.
-/
import proofs.«131888_j68736656605705_1_alg».proof.Proof.KI.Reg3
import proofs.«131888_j68736656605705_1_alg».proof.Proof.Val.Spec
import proofs.«131888_j68736656605705_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## The product with the left operand's rows contracted -/

/-- The left operand's contracted axis (its rows) reads the contraction position, -/
theorem lhs_ktv3_0 (i : S1024x1024.Idx) (q : dot_S1024x1024_S1024x1024_S1024x1024_0_0_1_1_n_n.contr.Idx) :
    (dot_S1024x1024_S1024x1024_S1024x1024_0_0_1_1_n_n.lhsIdx i q 0).val = (q ⟨0, by decide⟩).val :=
  dot_S1024x1024_S1024x1024_S1024x1024_0_0_1_1_n_n.lhsIdx_val_of_single rfl i q
/-- its free axis (its columns) the output's row. -/
theorem lhs_ktv3_1 (i : S1024x1024.Idx) (q : dot_S1024x1024_S1024x1024_S1024x1024_0_0_1_1_n_n.contr.Idx) :
    (dot_S1024x1024_S1024x1024_S1024x1024_0_0_1_1_n_n.lhsIdx i q 1).val = (i 0).val := by
  unfold DotDims.lhsIdx
  rw [dif_neg (show ¬(1 : Fin S1024x1024.rank) ∈ dot_S1024x1024_S1024x1024_S1024x1024_0_0_1_1_n_n.lhsBatch by decide), dif_pos (show (1 : Fin S1024x1024.rank) ∈ dot_S1024x1024_S1024x1024_S1024x1024_0_0_1_1_n_n.lhsNonContracting by decide)]
  rfl
/-- The right operand's contracted axis (its rows) reads the contraction position, -/
theorem rhs_ktv3_0 (i : S1024x1024.Idx) (q : dot_S1024x1024_S1024x1024_S1024x1024_0_0_1_1_n_n.contr.Idx) :
    (dot_S1024x1024_S1024x1024_S1024x1024_0_0_1_1_n_n.rhsIdx i q 0).val = (q ⟨0, by decide⟩).val :=
  dot_S1024x1024_S1024x1024_S1024x1024_0_0_1_1_n_n.rhsIdx_val_of_single rfl i q
/-- its free axis (its columns) the output's column. -/
theorem rhs_ktv3_1 (i : S1024x1024.Idx) (q : dot_S1024x1024_S1024x1024_S1024x1024_0_0_1_1_n_n.contr.Idx) :
    (dot_S1024x1024_S1024x1024_S1024x1024_0_0_1_1_n_n.rhsIdx i q 1).val = (i 1).val := by
  unfold DotDims.rhsIdx
  rw [dif_neg (show ¬(1 : Fin S1024x1024.rank) ∈ dot_S1024x1024_S1024x1024_S1024x1024_0_0_1_1_n_n.rhsBatch by decide), dif_pos (show (1 : Fin S1024x1024.rank) ∈ dot_S1024x1024_S1024x1024_S1024x1024_0_0_1_1_n_n.rhsNonContracting by decide)]
  rfl

/-- The matrix product with both operands' rows contracted, into the zero accumulator, at entry (a, j): the sum over
    the row s of l(s,a) · r(s,j). -/
theorem ktvdot3_apply {φl φr : FTy} (l : FVec Ideal S1024x1024 φl) (r : FVec Ideal S1024x1024 φr) (a j : Fin 1024) :
    matmul dot_S1024x1024_S1024x1024_S1024x1024_0_0_1_1_n_n none l r (constant S1024x1024 .f32 0x00000000#32) (ix2 a j)
      = ∑ s : Fin 1024, l (ix2 s a) * r (ix2 s j) := by
  simp only [matmul]
  rw [Ideal.matmul_constant_zero_apply, ← Equiv.sum_comp (contrEquiv1 dot_S1024x1024_S1024x1024_S1024x1024_0_0_1_1_n_n 1024 rfl rfl).symm]
  refine Finset.sum_congr rfl fun s _ => ?_
  have hk := contrEquiv1_symm_val dot_S1024x1024_S1024x1024_S1024x1024_0_0_1_1_n_n 1024 rfl rfl s
  have el : dot_S1024x1024_S1024x1024_S1024x1024_0_0_1_1_n_n.lhsIdx (ix2 a j) ((contrEquiv1 dot_S1024x1024_S1024x1024_S1024x1024_0_0_1_1_n_n 1024 rfl rfl).symm s) = ix2 s a := funext fun x => Fin.ext (by
    match x with
    | ⟨0, _⟩ => exact (lhs_ktv3_0 _ _).trans hk
    | ⟨1, _⟩ => exact lhs_ktv3_1 _ _)
  have er : dot_S1024x1024_S1024x1024_S1024x1024_0_0_1_1_n_n.rhsIdx (ix2 a j) ((contrEquiv1 dot_S1024x1024_S1024x1024_S1024x1024_0_0_1_1_n_n 1024 rfl rfl).symm s) = ix2 s j := funext fun x => Fin.ext (by
    match x with
    | ⟨0, _⟩ => exact (rhs_ktv3_0 _ _).trans hk
    | ⟨1, _⟩ => exact rhs_ktv3_1 _ _)
  rw [el, er]

/-! ## The body's payloads at an entry -/

/-- The cleared scratch is zero everywhere. -/
theorem pay3_clear_apply (i : S1024x1024.Idx) : (k3_pay1 (F := Ideal) i : EReal) = 0 := by
  unfold k3_pay1
  simp only [shapeCast_self]
  show Ideal.ofBits .f32 0x00000000#32 = 0
  exact Ideal.ofBits_zero_f32

/-- One point's step at entry (a, j): what the scratch held plus the sum over the block's rows s of
    xl(s,a) · xr(s,j); the reshapes to the same shape are the identity. -/
theorem pay3_step_apply (xl xr : Vec Ideal S1024x1024 .bf16) (acc : Vec Ideal S1024x1024 .f32) (a j : Fin 1024) :
    (k3_pay2 xl xr acc (ix2 a j) : EReal)
      = (acc (ix2 a j) : EReal) + ∑ s : Fin 1024, (xl (ix2 s a) : EReal) * (xr (ix2 s j) : EReal) := by
  unfold k3_pay2
  simp only [shapeCast_self]
  rw [addf_apply]
  exact congrArg _ (ktvdot3_apply _ _ a j)

/-- The store into the output block is a format change: the identity on extended reals. -/
theorem pay3_out_apply (acc : Vec Ideal S1024x1024 .f32) (i : S1024x1024.Idx) : (k3_pay3 acc i : EReal) = (acc i : EReal) := rfl

/-! ## Sums over the first m rows -/

/-- ∑ over the first m rows s of K(s,a) · W(s,j). -/
def rowsum3 (K W : Cert.Spec.Sx.Idx → EReal) (a j : Fin 1024) (m : ℕ) (hm : m ≤ 8192) : EReal :=
  ∑ s : Fin m, K (ix2 (⟨s.val, lt_of_lt_of_le s.isLt hm⟩ : Fin 8192) a) * W (ix2 (⟨s.val, lt_of_lt_of_le s.isLt hm⟩ : Fin 8192) j)

/-- The first m + 1024 rows are the first m and then 1024 more. -/
theorem rowsum3_add (K W : Cert.Spec.Sx.Idx → EReal) (a j : Fin 1024) (m m' : ℕ) (hm : m ≤ 8192) (hm' : m' ≤ 8192)
    (hadd : m' = m + 1024) :
    rowsum3 K W a j m' hm'
      = rowsum3 K W a j m hm + ∑ s : Fin 1024, K (ix2 (⟨m + s.val, by have := s.isLt; omega⟩ : Fin 8192) a) * W (ix2 (⟨m + s.val, by have := s.isLt; omega⟩ : Fin 8192) j) := by
  unfold rowsum3
  exact Cert.PlainDot.sum_two_blocks hadd _ _ _ (fun _ => rfl) (fun _ => rfl)

/-- All 8192 rows: the entry of kᵀ·v. -/
theorem rowsum3_all (K W : Cert.Spec.Sx.Idx → EReal) (a j : Fin 1024) (hm : 8192 ≤ 8192) :
    rowsum3 K W a j 8192 hm = Cert.Spec.ktv K W (ix2 a j) := by
  rw [Cert.Spec.ktv_apply]
  rfl

/-! ## The blocks, the scratch after each point, the output -/

/-- ∑ over no rows. -/
theorem rowsum3_none (K W : Cert.Spec.Sx.Idx → EReal) (a j : Fin 1024) (hm : 0 ≤ 8192) : rowsum3 K W a j 0 hm = 0 := by
  unfold rowsum3
  exact Fin.sum_univ_zero _

/-- One point's block product at (a, j), when row s of the two blocks is row m + s of K and of W. -/
theorem blkprod3 (K W : Cert.Spec.Sx.Idx → EReal) (xl xr : Vec Ideal S1024x1024 .bf16) (a j : Fin 1024) (m : ℕ) (hle : m + 1024 ≤ 8192)
    (hl : ∀ (s : Fin 1024) (r : Fin 8192), r.val = m + s.val → (xl (ix2 s a) : EReal) = K (ix2 r a))
    (hr : ∀ (s : Fin 1024) (r : Fin 8192), r.val = m + s.val → (xr (ix2 s j) : EReal) = W (ix2 r j)) :
    ∑ s : Fin 1024, (xl (ix2 s a) : EReal) * (xr (ix2 s j) : EReal)
      = ∑ s : Fin 1024, K (ix2 (⟨m + s.val, by have := s.isLt; omega⟩ : Fin 8192) a) * W (ix2 (⟨m + s.val, by have := s.isLt; omega⟩ : Fin 8192) j) :=
  Finset.sum_congr rfl fun s _ => congrArg₂ (· * ·) (hl s _ rfl) (hr s _ rfl)

variable (V : (c : Dev nD) → (b : Ref sig .tc) → Buf (Elt Ideal) ((c : Thread nD τ).loc b))

/-- The printed index maps, decided over the grid: at point t the blocks of k and of v are the t-th block of rows, and
    the output's block is the whole array. -/
theorem idx_facts3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0 :=
  (by decide +kernel : ∀ t : Fin grid3.N, _)

/-- Row s of the block of k at point t is row 1024·t + s of k. -/
theorem blk3_k (c : Dev nD) (t : Fin cfg3.N) (s a : Fin 1024) (r : Fin 8192) (hr : r.val = 1024 * t.val + s.val) :
    (iblk3 V c 0 t (ix2 s a) : EReal) = V c main_v1 (ix2 r a) := by
  obtain ⟨eA, eB, eC, eD, eE, eF⟩ := idx_facts3 t
  show V c main_v1 (((cfg3.win 0).blk t).view.emb (ix2 s a)) = V c main_v1 (ix2 r a)
  refine congrArg _ ?_
  funext x; apply Fin.ext
  match x with
  | ⟨0, _⟩ => show win3_0.index t (0 : Fin 2) * 1024 + 1 * s.val = r.val; omega
  | ⟨1, _⟩ => show win3_0.index t (1 : Fin 2) * 1024 + 1 * a.val = a.val; omega

/-- Row s of the block of v at point t is row 1024·t + s of v. -/
theorem blk3_v (c : Dev nD) (t : Fin cfg3.N) (s j : Fin 1024) (r : Fin 8192) (hr : r.val = 1024 * t.val + s.val) :
    (iblk3 V c 1 t (ix2 s j) : EReal) = V c main_v2 (ix2 r j) := by
  obtain ⟨eA, eB, eC, eD, eE, eF⟩ := idx_facts3 t
  show V c main_v2 (((cfg3.win 1).blk t).view.emb (ix2 s j)) = V c main_v2 (ix2 r j)
  refine congrArg _ ?_
  funext x; apply Fin.ext
  match x with
  | ⟨0, _⟩ => show win3_1.index t (0 : Fin 2) * 1024 + 1 * s.val = r.val; omega
  | ⟨1, _⟩ => show win3_1.index t (1 : Fin 2) * 1024 + 1 * j.val = j.val; omega

/-- THE SCRATCH AFTER POINT n, at (a, j): the sum over the first 1024·(n+1) rows. -/
theorem acc3_apply (c : Dev nD) (a j : Fin 1024) : ∀ (n : ℕ) (h : n < cfg3.N) (m : ℕ) (hm : m = 1024 * (n + 1)) (hle : m ≤ 8192),
    (acc3 V c n h (ix2 a j) : EReal) = rowsum3 (V c main_v1) (V c main_v2) a j m hle
  | 0, h, m, hm, hle => by
    show (k3_pay2 (iblk3 V c 0 ⟨0, h⟩) (iblk3 V c 1 ⟨0, h⟩) (k3_pay1 (F := Ideal)) (ix2 a j) : EReal) = _
    rw [pay3_step_apply, pay3_clear_apply, rowsum3_add _ _ a j 0 m (by omega) hle (by omega), rowsum3_none]
    exact congrArg (0 + ·) (blkprod3 _ _ _ _ a j 0 (by omega)
      (fun s r hr => blk3_k V c ⟨0, h⟩ s a r (by show r.val = 1024 * 0 + s.val; omega))
      (fun s r hr => blk3_v V c ⟨0, h⟩ s j r (by show r.val = 1024 * 0 + s.val; omega)))
  | n + 1, h, m, hm, hle => by
    show (k3_pay2 (iblk3 V c 0 ⟨n + 1, h⟩) (iblk3 V c 1 ⟨n + 1, h⟩) (acc3 V c n (Nat.lt_of_succ_lt h)) (ix2 a j) : EReal) = _
    rw [pay3_step_apply, rowsum3_add _ _ a j (1024 * (n + 1)) m (by omega) hle (by omega)]
    exact congrArg₂ (· + ·) (acc3_apply c a j n (Nat.lt_of_succ_lt h) (1024 * (n + 1)) rfl (by omega))
      (blkprod3 _ _ _ _ a j (1024 * (n + 1)) (by omega)
        (fun s r hr => blk3_k V c ⟨n + 1, h⟩ s a r (by show r.val = 1024 * (n + 1) + s.val; omega))
        (fun s r hr => blk3_v V c ⟨n + 1, h⟩ s j r (by show r.val = 1024 * (n + 1) + s.val; omega)))

/-- The output block at an entry, when the scratch holds the sums over all rows and the entry of the array is the
    entry of the block: the format change is the identity, so it is the entry of kᵀ·v. -/
theorem outblk3 (K W : Cert.Spec.Sx.Idx → EReal) (acc : Vec Ideal S1024x1024 .f32) (y : S1024x1024.Idx) (i : Cert.Spec.Sw.Idx)
    (hacc : ∀ a j : Fin 1024, (acc (ix2 a j) : EReal) = rowsum3 K W a j 8192 le_rfl)
    (hrow : (i 0).val = (y 0).val) (hcol : (i 1).val = (y 1).val) :
    (k3_pay3 acc y : EReal) = Cert.Spec.ktv K W i := by
  obtain ⟨a, j, rfl⟩ : ∃ (a j : Fin 1024), y = ix2 a j := ⟨y 0, y 1, eq_ix2 y⟩
  obtain ⟨a', j', rfl⟩ : ∃ (a' j' : Fin 1024), i = ix2 a' j' := ⟨i 0, i 1, eq_ix2 i⟩
  obtain rfl : a' = a := Fin.ext hrow
  obtain rfl : j' = j := Fin.ext hcol
  rw [pay3_out_apply, hacc, rowsum3_all]

/-- What the one writing point (the last) writes back is the whole array of kᵀ·v. -/
theorem flushed3_eq (c : Dev nD) (t : Fin cfg3.N) (hf : (cfg3.win 2).flush t = true) :
    (dat3 (F := Ideal) V c).flushed 2 t
      = ((cfg3.win 2).blk t).view.read (Elt Ideal) (Cert.Spec.ktv (V c main_v1) (V c main_v2)) := by
  have hN : cfg3.N = 8 := N_3
  have hmod : t.val % 8 = 7 := (flush3_2 t).mp hf
  have hlast : t.val = 7 := by have := t.isLt; omega
  obtain ⟨eA, eB, eC, eD, eE, eF⟩ := idx_facts3 t
  show (cfg3.win 2).cut (grid3.coords t) ((dat3 V c).after 2 t) = _
  rw [after3_2]
  funext y
  show (k3_pay3 (acc3 V c t.val t.isLt) y : EReal) = Cert.Spec.ktv (V c main_v1) (V c main_v2) (((cfg3.win 2).blk t).view.emb y)
  refine outblk3 _ _ _ y _ (fun a j => acc3_apply V c a j t.val t.isLt 8192 (by omega) le_rfl) ?_ ?_
  · show win3_2.index t (0 : Fin 2) * 1024 + 1 * (y 0).val = (y 0).val; omega
  · show win3_2.index t (1 : Fin 2) * 1024 + 1 * (y 1).val = (y 1).val; omega

/-- An index of the output array is in point t's block iff each coordinate is in the block's range on its axis. -/
theorem mem_blk3 (t : Fin cfg3.N) (i : S1024x1024.Idx) :
    i ∈ ((cfg3.win 2).blk t).view.set ↔ ∀ a : Fin 2, win3_2.index t a * S1024x1024.size a ≤ (i a).val ∧ (i a).val < win3_2.index t a * S1024x1024.size a + S1024x1024.size a := by
  show i ∈ ((View.whole main_v3).slice (win3_2.rect t)).set ↔ _
  rw [View.set_slice_whole, Rect.mem_set_unit]
  exact Iff.rfl

/-- The last point's block is the whole output array. -/
theorem cover3 (i : S1024x1024.Idx) :
    ∃ t : Fin cfg3.N, (cfg3.win 2).flush t = true ∧ i ∈ ((cfg3.win 2).blk t).view.set := by
  have hN : cfg3.N = 8 := N_3
  have hrow : (i 0).val < 1024 := (i 0).isLt
  have hcol : (i 1).val < 1024 := (i 1).isLt
  obtain ⟨eA, eB, eC, eD, eE, eF⟩ := idx_facts3 ⟨7, by omega⟩
  refine ⟨⟨7, by omega⟩, (flush3_2 _).mpr rfl, ?_⟩
  rw [mem_blk3]
  intro a
  match a with
  | ⟨0, _⟩ => show win3_2.index ⟨7, _⟩ (0 : Fin 2) * 1024 ≤ (i 0).val ∧ (i 0).val < win3_2.index ⟨7, _⟩ (0 : Fin 2) * 1024 + 1024; omega
  | ⟨1, _⟩ => show win3_2.index ⟨7, _⟩ (1 : Fin 2) * 1024 ≤ (i 1).val ∧ (i 1).val < win3_2.index ⟨7, _⟩ (1 : Fin 2) * 1024 + 1024; omega

/-- The output array after the region: kᵀ·v of the two argument arrays as the region finds them. -/
theorem final3 (c : Dev nD) :
    (dat3 (F := Ideal) V c).arrAt 2 cfg3.N = Cert.Spec.ktv (V c main_v1) (V c main_v2) :=
  (dat3 (F := Ideal) V c).arrAt_eq_of_cover 2 (Cert.Spec.ktv (V c main_v1) (V c main_v2))
    (fun t hf => flushed3_eq V c t hf) cover3

end Cert.KernelIdeal.HandVal

end
-- ==== Proof.Val.Qm4.lean ====
/-
  Region 4 of the kernel: q (8192 × 1024) against the whole 1024 × 1024 matrix M = kᵀ·v, one block of 1024 rows per
  grid point. At the ideal values each point writes back its block of rows of the product q·M, the eight blocks tile the
  8192 rows, and so the region leaves the whole product: entry (i, j) is ∑ₐ q(i,a) · M(a,j).
-/
import proofs.«131888_j68736656605705_1_alg».proof.Proof.KI.Reg4
import proofs.«131888_j68736656605705_1_alg».proof.Proof.Val.Spec
import proofs.«131888_j68736656605705_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-- The block's rectangle starts at the origin. -/
theorem hz4 : (![0, 0] : Fin 2 → Nat) = fun _ => 0 := funext fun a => by fin_cases a <;> rfl

/-- The body's payload at entry (p, q) of the block: the two reshapes to the same shape are the identity, and the
    matrix product into the zero accumulator is the sum over the contracted coordinate. -/
theorem pay4_apply (xl xr : Vec Ideal S1024x1024 .bf16) (p q : Fin 1024) :
    (k4_pay1 xl xr (ix2 p q) : EReal) = ∑ k : Fin 1024, (xl (ix2 p k) : EReal) * (xr (ix2 k q) : EReal) := by
  unfold k4_pay1
  simp only [shapeCast_self]
  exact Cert.PlainDot.matmul_zero_apply _ rfl none _ _ p q

variable (V : (c : Dev nD) → (b : Ref sig .tc) → Buf (Elt Ideal) ((c : Thread nD τ).loc b))

/-- The printed index maps, decided over the grid: the left operand's block of rows moves with the output's, the
    right operand's block never moves, and the output's row block at point t is block t. -/
theorem idx_facts4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (0 : Fin 2) ≤ 7
    ∧ win4_2.index t (1 : Fin 2) = 0 :=
  (by decide +kernel : ∀ t : Fin grid4.N, _)

/-- Every block of rows is some point's. -/
theorem idx_onto4 : ∀ (qrow : Fin 8), ∃ t : Fin cfg4.N, win4_2.index t = ![qrow.val, 0] :=
  (by decide +kernel : ∀ (qrow : Fin 8), ∃ t : Fin grid4.N, win4_2.index t = ![qrow.val, 0])

/-- One entry of a block of the product: when the left block's row p is row (i 0) of x, the right block is all of W,
    and the entry's column is (i 1), the payload at (p, q) is the product x·W at i. -/
theorem blockprod4 (X : Cert.Spec.Sx.Idx → EReal) (W : Cert.Spec.Sw.Idx → EReal) (xl xr : Vec Ideal S1024x1024 .bf16)
    (y : S1024x1024.Idx) (i : Cert.Spec.Sx.Idx)
    (hl : ∀ k : Fin 1024, (xl (ix2 (y 0) k) : EReal) = X (ix2 (i 0) k))
    (hr : ∀ k : Fin 1024, (xr (ix2 k (y 1)) : EReal) = W (ix2 k (i 1))) :
    (k4_pay1 xl xr y : EReal) = Cert.Spec.proj X W i := by
  obtain ⟨p, q, rfl⟩ : ∃ (p q : Fin 1024), y = ix2 p q := ⟨y 0, y 1, eq_ix2 y⟩
  obtain ⟨r, a, rfl⟩ : ∃ (r : Fin 8192) (a : Fin 1024), i = ix2 r a := ⟨i 0, i 1, eq_ix2 i⟩
  rw [pay4_apply, Cert.Spec.proj_apply]
  exact Finset.sum_congr rfl fun k _ => congrArg₂ (· * ·) (hl k) (hr k)

/-- What point t writes back is block t of the product of the two argument arrays as the region finds them. -/
theorem flushed4_eq (c : Dev nD) (t : Fin cfg4.N) :
    (dat4 (F := Ideal) V c).flushed 2 t
      = ((cfg4.win 2).blk t).view.read (Elt Ideal) (Cert.Spec.proj (V c main_v0) (V c main_v3)) := by
  show (cfg4.win 2).cut (grid4.coords t) ((dat4 V c).after 2 t) = _
  rw [after4_2]
  unfold out4_2
  rw [View.canon_unit_zero hz4]
  simp only [View.ld_unit_zero (S := S1024x1024) hz4]
  obtain ⟨eA, eB, eC, eD, eE, eF⟩ := idx_facts4 t
  funext y
  show (k4_pay1 (iblk4 V c 0 t) (iblk4 V c 1 t) y : EReal) = Cert.Spec.proj (V c main_v0) (V c main_v3) (((cfg4.win 2).blk t).view.emb y)
  refine blockprod4 _ _ _ _ y _ ?_ ?_
  · intro k
    show V c main_v0 (((cfg4.win 0).blk t).view.emb (ix2 (y 0) k)) = V c main_v0 (ix2 (((cfg4.win 2).blk t).view.emb y 0) k)
    refine congrArg _ ?_
    funext a; apply Fin.ext
    match a with
    | ⟨0, _⟩ => show win4_0.index t (0 : Fin 2) * 1024 + 1 * (y 0).val = win4_2.index t (0 : Fin 2) * 1024 + 1 * (y 0).val; omega
    | ⟨1, _⟩ => show win4_0.index t (1 : Fin 2) * 1024 + 1 * k.val = k.val; omega
  · intro k
    show V c main_v3 (((cfg4.win 1).blk t).view.emb (ix2 k (y 1))) = V c main_v3 (ix2 k (((cfg4.win 2).blk t).view.emb y 1))
    refine congrArg _ ?_
    funext a; apply Fin.ext
    match a with
    | ⟨0, _⟩ => show win4_1.index t (0 : Fin 2) * 1024 + 1 * k.val = k.val; omega
    | ⟨1, _⟩ => show win4_1.index t (1 : Fin 2) * 1024 + 1 * (y 1).val = win4_2.index t (1 : Fin 2) * 1024 + 1 * (y 1).val; omega

/-- An index of the output array is in point t's block iff each coordinate is in the block's range on its axis. -/
theorem mem_blk4 (t : Fin cfg4.N) (i : S8192x1024.Idx) :
    i ∈ ((cfg4.win 2).blk t).view.set ↔ ∀ a : Fin 2, win4_2.index t a * S1024x1024.size a ≤ (i a).val ∧ (i a).val < win4_2.index t a * S1024x1024.size a + S1024x1024.size a := by
  show i ∈ ((View.whole main_v4).slice (win4_2.rect t)).set ↔ _
  rw [View.set_slice_whole, Rect.mem_set_unit]
  exact Iff.rfl

/-- The eight blocks of 1024 rows tile the 8192 rows: row r is in the block of point r / 1024. -/
theorem cover4 (i : S8192x1024.Idx) :
    ∃ t : Fin cfg4.N, (cfg4.win 2).flush t = true ∧ i ∈ ((cfg4.win 2).blk t).view.set := by
  have hrow : (i 0).val < 8192 := (i 0).isLt
  have hcol : (i 1).val < 1024 := (i 1).isLt
  obtain ⟨t, ht⟩ := idx_onto4 ⟨(i 0).val / 1024, by omega⟩
  have qrow : win4_2.index t (0 : Fin 2) = (i 0).val / 1024 := congrFun ht 0
  have qcol : win4_2.index t (1 : Fin 2) = 0 := congrFun ht 1
  refine ⟨t, flush4_2 t, ?_⟩
  rw [mem_blk4]
  intro a
  match a with
  | ⟨0, _⟩ => show win4_2.index t (0 : Fin 2) * 1024 ≤ (i 0).val ∧ (i 0).val < win4_2.index t (0 : Fin 2) * 1024 + 1024; omega
  | ⟨1, _⟩ => show win4_2.index t (1 : Fin 2) * 1024 ≤ (i 1).val ∧ (i 1).val < win4_2.index t (1 : Fin 2) * 1024 + 1024; omega

/-- The output array after the region: the product of the two argument arrays as the region finds them. -/
theorem final4 (c : Dev nD) :
    (dat4 (F := Ideal) V c).arrAt 2 cfg4.N = Cert.Spec.proj (V c main_v0) (V c main_v3) :=
  (dat4 (F := Ideal) V c).arrAt_eq_of_cover 2 (Cert.Spec.proj (V c main_v0) (V c main_v3))
    (fun t _ => flushed4_eq V c t) cover4

end Cert.KernelIdeal.HandVal

end
-- ==== Proof.Val.Kernel.lean ====
/-
  The kernel's result as one function of the four argument arrays, at the ideal values: region 4 leaves q·M where q is
  what region 0 left (x·WQ) and M what region 3 left (kᵀ·v, with k = x·WK and v = x·WV from regions 1 and 2), each
  region reading the arrays the earlier regions wrote and the arguments as launched.
-/
import proofs.«131888_j68736656605705_1_alg».proof.Proof.KI.Run
import proofs.«131888_j68736656605705_1_alg».proof.Proof.Val.Proj0
import proofs.«131888_j68736656605705_1_alg».proof.Proof.Val.Proj1
import proofs.«131888_j68736656605705_1_alg».proof.Proof.Val.Proj2
import proofs.«131888_j68736656605705_1_alg».proof.Proof.Val.Ktv3
import proofs.«131888_j68736656605705_1_alg».proof.Proof.Val.Qm4

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem
open Idealize.ShloMosaic.Pipeline (Dat)

variable (m : (ℓ : Loc nD τ sig) → Buf (Elt Ideal) ℓ)

/-- What region 4's write-backs leave in the result array is q·(kᵀ·v) of the launch contents of the arguments. -/
theorem result_eq (c : Dev nD) :
    (dat4 (F := Ideal) (V4 m) c).arrAt 2 cfg4.N
      = Cert.Spec.Gker (m ((c.tc : Thread nD τ).loc main_arg0)) (m ((c.tc : Thread nD τ).loc main_arg1))
          (m ((c.tc : Thread nD τ).loc main_arg2)) (m ((c.tc : Thread nD τ).loc main_arg3)) := by
  rw [final4, V4_main_v0, V4_main_v3, final0, final3, V3_main_v1, V3_main_v2, final1, final2,
    V1_main_arg0, V1_main_arg2, V2_main_arg0, V2_main_arg3]
  rfl

end Cert.KernelIdeal.HandVal

end
-- ==== Proof.Val.Ref.lean ====
/-
  The reference program's result as a function of the four argument arrays, over the extended reals.
  The reference forms q = x·WQ, k = x·WK, v = x·WV, then kᵀ, then the 8192 × 8192 matrix q·kᵀ, then (q·kᵀ)·v.
  Entry (p, j) of the result is ∑ₛ (∑ₐ q(p,a) · k(s,a)) · v(s,j): each matrix product is the sum over its contracted
  axis, and the transpose swaps the two coordinates of the index at which k is read.
-/
import proofs.«131888_j68736656605705_1_alg».proof.Proof.Gen.ReferenceIdeal.Read
import proofs.«131888_j68736656605705_1_alg».proof.Proof.Val.Spec

noncomputable section

namespace Cert.RefValue

open Cert.ReferenceIdeal Cert.ReferenceIdeal.Read Idealize.ShloMosaic Idealize.ShloMosaic.ValueIdx

/-- The first projection x·W, entry by entry, is the sum over the contracted axis. -/
theorem v0_eq (x : (⟨S8192x1024, .f32⟩ : BufTy).Contents (Elt Ideal)) (w : (⟨S1024x1024, .f32⟩ : BufTy).Contents (Elt Ideal))
    (j : S8192x1024.Idx) : val_main_v0 (F := Ideal) x w j = Cert.Spec.proj x w j := by
  rw [val_main_v0_apply]
  unfold Cert.Spec.proj
  refine Finset.sum_congr rfl fun k _ => ?_
  have el : lidx_main_v0 j k = ix2 (⟨(j 0).val, (j 0).isLt⟩ : Fin 8192) k :=
    funext fun a => by match a with | ⟨0, _⟩ => rfl | ⟨1, _⟩ => rfl
  have er : ridx_main_v0 j k = ix2 k (⟨(j 1).val, (j 1).isLt⟩ : Fin 1024) :=
    funext fun a => by match a with | ⟨0, _⟩ => rfl | ⟨1, _⟩ => rfl
  rw [el, er]

/-- The second projection, the same sum. -/
theorem v1_eq (x : (⟨S8192x1024, .f32⟩ : BufTy).Contents (Elt Ideal)) (w : (⟨S1024x1024, .f32⟩ : BufTy).Contents (Elt Ideal))
    (j : S8192x1024.Idx) : val_main_v1 (F := Ideal) x w j = Cert.Spec.proj x w j := by
  rw [val_main_v1_apply]
  unfold Cert.Spec.proj
  refine Finset.sum_congr rfl fun k _ => ?_
  have el : lidx_main_v1 j k = ix2 (⟨(j 0).val, (j 0).isLt⟩ : Fin 8192) k :=
    funext fun a => by match a with | ⟨0, _⟩ => rfl | ⟨1, _⟩ => rfl
  have er : ridx_main_v1 j k = ix2 k (⟨(j 1).val, (j 1).isLt⟩ : Fin 1024) :=
    funext fun a => by match a with | ⟨0, _⟩ => rfl | ⟨1, _⟩ => rfl
  rw [el, er]

/-- The third projection, the same sum. -/
theorem v2_eq (x : (⟨S8192x1024, .f32⟩ : BufTy).Contents (Elt Ideal)) (w : (⟨S1024x1024, .f32⟩ : BufTy).Contents (Elt Ideal))
    (j : S8192x1024.Idx) : val_main_v2 (F := Ideal) x w j = Cert.Spec.proj x w j := by
  rw [val_main_v2_apply]
  unfold Cert.Spec.proj
  refine Finset.sum_congr rfl fun k _ => ?_
  have el : lidx_main_v2 j k = ix2 (⟨(j 0).val, (j 0).isLt⟩ : Fin 8192) k :=
    funext fun a => by match a with | ⟨0, _⟩ => rfl | ⟨1, _⟩ => rfl
  have er : ridx_main_v2 j k = ix2 k (⟨(j 1).val, (j 1).isLt⟩ : Fin 1024) :=
    funext fun a => by match a with | ⟨0, _⟩ => rfl | ⟨1, _⟩ => rfl
  rw [el, er]

/-- The reference's result is (q · kᵀ) · v, entry by entry. -/
theorem ref_eq (x : (⟨Cert.ReferenceIdeal.S8192x1024, .f32⟩ : BufTy).Contents (Elt Ideal)) (wq wk wv : (⟨Cert.ReferenceIdeal.S1024x1024, .f32⟩ : BufTy).Contents (Elt Ideal)) :
    Cert.ReferenceIdeal.Read.val_main_v5 (F := Ideal) x wq wk wv = Cert.Spec.Gref x wq wk wv := by
  funext i
  rw [val_main_v5_apply]
  unfold Cert.Spec.Gref
  refine Finset.sum_congr rfl fun s _ => ?_
  rw [val_main_v4_apply, v2_eq]
  have e2 : ridx_main_v5 i s = ix2 s (⟨(i 1).val, (i 1).isLt⟩ : Fin 1024) :=
    funext fun a => by match a with | ⟨0, _⟩ => rfl | ⟨1, _⟩ => rfl
  rw [e2]
  congr 1
  refine Finset.sum_congr rfl fun a _ => ?_
  rw [val_main_v3_apply, v0_eq, v1_eq]
  have e0 : lidx_main_v4 (lidx_main_v5 i s) a = ix2 (⟨(i 0).val, (i 0).isLt⟩ : Fin 8192) a :=
    funext fun d => by match d with | ⟨0, _⟩ => rfl | ⟨1, _⟩ => rfl
  have e1 : idx_main_v3 (ridx_main_v4 (lidx_main_v5 i s) a) = ix2 s a :=
    funext fun d => by match d with | ⟨0, _⟩ => rfl | ⟨1, _⟩ => rfl
  rw [e0, e1]

end Cert.RefValue

end
-- ==== Proof.Val.Algebra.lean ====
/-
  Associativity of the triple matrix product at real entries.
  Over the extended reals multiplication does not distribute over addition at the infinities, so the identity
  q · (kᵀ · v) = (q · kᵀ) · v is shown under the hypothesis that every entry of the four argument arrays is a real
  number: then every entry of q, k, v is a finite sum of products of reals, hence real, both sides are coercions of
  real sums, and the identity is the exchange of two finite sums in ℝ.
-/
import proofs.«131888_j68736656605705_1_alg».proof.Proof.Val.Spec
import Mathlib.Data.EReal.Basic
import Mathlib.Algebra.BigOperators.Ring.Finset
import Mathlib.Algebra.BigOperators.Group.Finset.Basic

noncomputable section

namespace Cert.Spec

open Idealize.ShloMosaic Idealize.ShloMosaic.ValueIdx

/-- The coercion ℝ → EReal commutes with finite sums. -/
theorem coe_real_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Exchange of the two summations: ∑ₐ q(a) · (∑ₛ k(s,a) · v(s)) = ∑ₛ (∑ₐ q(a) · k(s,a)) · v(s) in ℝ. -/
theorem real_assoc {α σ : Type*} [Fintype α] [Fintype σ] (q : α → ℝ) (k : σ → α → ℝ) (v : σ → ℝ) :
    ∑ a, q a * (∑ s, k s a * v s) = ∑ s, (∑ a, q a * k s a) * v s := by
  simp only [Finset.mul_sum, Finset.sum_mul]
  rw [Finset.sum_comm]
  refine Finset.sum_congr rfl fun s _ => Finset.sum_congr rfl fun a _ => ?_
  ring

/-- A product of rows against columns of real-valued arrays is real-valued. -/
theorem proj_allReal {l : Sx.Idx → EReal} {w : Sw.Idx → EReal} (hl : AllReal l) (hw : AllReal w) :
    AllReal (proj l w) := by
  choose lr hlr using hl
  choose wr hwr using hw
  intro i
  obtain ⟨p, a, rfl⟩ : ∃ (p : Fin 8192) (a : Fin 1024), i = ix2 p a := ⟨i 0, i 1, eq_ix2 i⟩
  refine ⟨∑ k : Fin 1024, lr (ix2 p k) * wr (ix2 k a), ?_⟩
  rw [proj_apply, coe_real_sum]
  refine Finset.sum_congr rfl fun k _ => ?_
  rw [hlr, hwr, EReal.coe_mul]

/-- At real entries the kernel's product q · (kᵀ · v) and the reference's product (q · kᵀ) · v agree. -/
theorem Gker_eq_Gref {x : Sx.Idx → EReal} {wq wk wv : Sw.Idx → EReal}
    (hx : AllReal x) (hq : AllReal wq) (hk : AllReal wk) (hv : AllReal wv) :
    Gker x wq wk wv = Gref x wq wk wv := by
  choose qr hqr using proj_allReal hx hq
  choose kr hkr using proj_allReal hx hk
  choose vr hvr using proj_allReal hx hv
  funext i
  obtain ⟨p, j, rfl⟩ : ∃ (p : Fin 8192) (j : Fin 1024), i = ix2 p j := ⟨i 0, i 1, eq_ix2 i⟩
  have hL : Gker x wq wk wv (ix2 p j)
      = ((∑ a : Fin 1024, qr (ix2 p a) * (∑ s : Fin 8192, kr (ix2 s a) * vr (ix2 s j)) : ℝ) : EReal) := by
    unfold Gker
    rw [proj_apply, coe_real_sum]
    refine Finset.sum_congr rfl fun a _ => ?_
    rw [ktv_apply, hqr, EReal.coe_mul, coe_real_sum]
    refine congrArg (fun t : EReal => (qr (ix2 p a) : EReal) * t) ?_
    refine Finset.sum_congr rfl fun s _ => ?_
    rw [hkr, hvr, EReal.coe_mul]
  have hR : Gref x wq wk wv (ix2 p j)
      = ((∑ s : Fin 8192, (∑ a : Fin 1024, qr (ix2 p a) * kr (ix2 s a)) * vr (ix2 s j) : ℝ) : EReal) := by
    show (∑ s : Fin 8192, (∑ a : Fin 1024, proj x wq (ix2 p a) * proj x wk (ix2 s a)) * proj x wv (ix2 s j)) = _
    rw [coe_real_sum]
    refine Finset.sum_congr rfl fun s _ => ?_
    rw [hvr, EReal.coe_mul, coe_real_sum]
    refine congrArg (fun t : EReal => t * (vr (ix2 s j) : EReal)) ?_
    refine Finset.sum_congr rfl fun a _ => ?_
    rw [hqr, hkr, EReal.coe_mul]
  rw [hL, hR, real_assoc (fun a => qr (ix2 p a)) (fun s a => kr (ix2 s a)) (fun s => vr (ix2 s j))]

end Cert.Spec

end
-- ==== Proof.Val.Finite.lean ====
/-
  Finiteness of the four argument arrays, read back from the stated precondition.
  The precondition is the conjunction, over the four arrays, of "every entry a has |a| < +∞", where |a| = max a (-a)
  on the extended reals. An extended real with max a (-a) < ⊤ is neither ⊤ (then max = ⊤) nor ⊥ (then -a = ⊤), so it
  is a real number.
-/
import proofs.«131888_j68736656605705_1_alg».proof.Pre_finite_inputs
import proofs.«131888_j68736656605705_1_alg».proof.Proof.Gen.Pre_finite_inputs
import proofs.«131888_j68736656605705_1_alg».proof.Proof.Val.Spec
import Idealize.ShloMosaic.Lib.ReduceAll
import Idealize.ShloMosaic.Lib.ValueIdx
import Idealize.ShloMosaic.PureOps.Ideal

noncomputable section

namespace Cert.Finite

open Idealize.ShloMosaic

/-- An extended real whose absolute value max a (-a) lies strictly below +∞ is a real number. -/
theorem real_of_abs_lt_top (a : EReal) (h : max a (-a) < ⊤) : ∃ r : ℝ, a = (r : EReal) := by
  induction a using EReal.rec with
  | bot => simp at h
  | coe r => exact ⟨r, rfl⟩
  | top => simp at h

/-- The bit pattern 0x7F800000 denotes +∞. -/
theorem ofBits_inf : Ideal.ofBits .f32 0x7F800000#32 = (⊤ : EReal) := by
  simp [Ideal.ofBits, Ideal.ieee]

/-- One entry: if the comparison |a| < +∞ came out true then a is real. -/
theorem real_of_cmp (a : EReal) (h : Ideal.cmp .olt (max a (-a)) (Ideal.ofBits .f32 0x7F800000#32) = 1#1) :
    ∃ r : ℝ, a = (r : EReal) := by
  rw [ofBits_inf] at h
  apply real_of_abs_lt_top
  by_contra hn
  simp [Ideal.cmp, hn] at h

instance : Subsingleton Cert.Pre_finite_inputs.S_.Idx := ⟨fun a b => funext fun d => d.elim0⟩

theorem allReal_of_pre [hP : Cert.Pre_finite_inputs.Facts]
    (x : (⟨Cert.Pre_finite_inputs.S8192x1024, .f32⟩ : BufTy).Contents (Elt Ideal))
    (wq wk wv : (⟨Cert.Pre_finite_inputs.S1024x1024, .f32⟩ : BufTy).Contents (Elt Ideal))
    (h : Cert.Pre_finite_inputs.fn (F := Ideal) x wq wk wv = (fun _ => 1#1)) :
    Cert.Spec.AllReal (S := Cert.Spec.Sx) x ∧ Cert.Spec.AllReal (S := Cert.Spec.Sw) wq
      ∧ Cert.Spec.AllReal (S := Cert.Spec.Sw) wk ∧ Cert.Spec.AllReal (S := Cert.Spec.Sw) wv := by
  have h0 := congrFun h ValueIdx.ix0
  dsimp only [Cert.Pre_finite_inputs.fn, Cert.Pre_finite_inputs.fn_part1, andi] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_, fun i => ?_⟩
  · exact real_of_cmp _ (Host.reduce_andi_all _ _ _ _ _ h1 i)
  · exact real_of_cmp _ (Host.reduce_andi_all _ _ _ _ _ h2 i)
  · exact real_of_cmp _ (Host.reduce_andi_all _ _ _ _ _ h3 i)
  · exact real_of_cmp _ (Host.reduce_andi_all _ _ _ _ _ h4 i)

end Cert.Finite

end
-- ==== Proof.lean ====
/-
  The certificate's claim. Both programs compute, from x (8192 × 1024) and three 1024 × 1024 weight matrices,
  q = x·WQ, k = x·WK, v = x·WV; the kernel then forms the small matrix kᵀ·v and returns q·(kᵀ·v), the reference
  forms the 8192 × 8192 matrix q·kᵀ and returns (q·kᵀ)·v. Over the extended reals the two agree because the inputs
  are finite: every entry of q, k, v is then a real number, and the matrix product of real matrices is associative.
  The kernel's run is five pipelined regions (three projections, kᵀ·v accumulated over eight row blocks in a
  scratch buffer, the final product), each proved against the pipeline's launch with its body's triple; its frame is
  the same run read at the argument arrays, which no region writes. The reference's run is the generated one.
-/
import proofs.«131888_j68736656605705_1_alg».proof.Defs
import proofs.«131888_j68736656605705_1_alg».proof.Proof.Gen.Kernel
import proofs.«131888_j68736656605705_1_alg».proof.Proof.Gen.KernelIdeal
import proofs.«131888_j68736656605705_1_alg».proof.Proof.Gen.ReferenceIdeal
import proofs.«131888_j68736656605705_1_alg».proof.Proof.Gen.Pre_finite_inputs
import proofs.«131888_j68736656605705_1_alg».proof.Proof.Gen.ReferenceIdeal.Run
import proofs.«131888_j68736656605705_1_alg».proof.Proof.Gen.ReferenceIdeal.Read
import proofs.«131888_j68736656605705_1_alg».proof.Proof.KB.Run
import proofs.«131888_j68736656605705_1_alg».proof.Proof.KI.Run
import proofs.«131888_j68736656605705_1_alg».proof.Proof.Val.Kernel
import proofs.«131888_j68736656605705_1_alg».proof.Proof.Val.Ref
import proofs.«131888_j68736656605705_1_alg».proof.Proof.Val.Algebra
import proofs.«131888_j68736656605705_1_alg».proof.Proof.Val.Finite
import Idealize.ShloMosaic.Adequacy
import Idealize.ShloMosaic.Init

noncomputable section

namespace Cert.Proof

open Idealize.ShloMosaic Idealize.ShloMosaic.TcCoe Idealize.SL.Sem

section Claims

variable [hKernel : Cert.Kernel.Facts] [hKernelIdeal : Cert.KernelIdeal.Facts] [hReferenceIdeal : Cert.ReferenceIdeal.Facts]
  [hPre : Cert.Pre_finite_inputs.Facts]

/-- The word-level kernel runs to the end and leaves its arguments as launched. -/
theorem frame_k : Cert.frame_Kernel := fun m ρ _ => Cert.Kernel.Hand.frame m ρ

/-- So does the kernel at the ideal values. -/
theorem frame_ki : Cert.frame_KernelIdeal := fun m ρ _ => Cert.KernelIdeal.Hand.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end at q·(kᵀ·v): the kernel's by its regions' values, the reference's (q·kᵀ)·v by associativity of the
    product of real matrices, the inputs being finite. -/
theorem algebraic : Cert.algebraic_KernelIdeal_ReferenceIdeal := by
  intro m ρ m' ρ' hpre hagree
  refine ⟨fun c => Cert.Spec.Gker (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.HandVal.result_eq m c), (h c).2⟩)
      (Cert.KernelIdeal.Hand.run_value m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2,
      Cert.ReferenceIdeal.Read.val_main_v5_eq, Cert.RefValue.ref_eq]
    obtain ⟨hx, hq, hk, hv⟩ := Cert.Finite.allReal_of_pre _ _ _ _ (hpre c)
    exact (Cert.Spec.Gker_eq_Gref hx hq hk hv).symm

end Claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
